-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x1024x3 : Shape := ⟨3, ![4, 1024, 3]⟩
abbrev S4x512x3 : Shape := ⟨3, ![4, 512, 3]⟩
abbrev S4x1024 : Shape := ⟨2, ![4, 1024]⟩
abbrev S4x1024x512 : Shape := ⟨3, ![4, 1024, 512]⟩
abbrev S4x1024x1 : Shape := ⟨3, ![4, 1024, 1]⟩
abbrev S4x512 : Shape := ⟨2, ![4, 512]⟩
abbrev S4x1x512 : Shape := ⟨3, ![4, 1, 512]⟩
abbrev S_ : Shape := ⟨0, ![]⟩
abbrev S4 : Shape := ⟨1, ![4]⟩

abbrev nBuf : Space → Nat
  | .hbm => 19
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S4x1024x3, .f32⟩
  | .local _ .vmem, ⟨1, _⟩ => ⟨S4x1024x3, .f32⟩
  | .local _ .vmem, ⟨2, _⟩ => ⟨S4x512x3, .f32⟩
  | .local _ .vmem, ⟨3, _⟩ => ⟨S4x512x3, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024x3, .f32⟩
  | .local _ .vmem, ⟨8, _⟩ => ⟨S4x1024x3, .f32⟩
  | .local _ .vmem, ⟨9, _⟩ => ⟨S4x512x3, .f32⟩
  | .local _ .vmem, ⟨10, _⟩ => ⟨S4x512x3, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x1024x3_S4x1024x3_0_0_0 : ∀ a, (![0, 0, 0] : Fin 3 → Nat) a + S4x1024x3.size a ≤ S4x1024x3.size a
  h_S4x1024x3 : 0 < S4x1024x3.numel
  inb_S4x512x3_S4x512x3_0_0_0 : ∀ a, (![0, 0, 0] : Fin 3 → Nat) a + S4x512x3.size a ≤ S4x512x3.size a
  h_S4x512x3 : 0 < S4x512x3.numel
  reduces_S4x1024x3_S4x1024 : S4x1024x3.Reduces [2] S4x1024
  shapeCasts_S4x1024_S4x1024x1 : S4x1024.ShapeCasts S4x1024x1
  reduces_S4x512x3_S4x512 : S4x512x3.Reduces [2] S4x512
  shapeCasts_S4x512_S4x1x512 : S4x512.ShapeCasts S4x1x512
  broadcasts_S4x1024x1_S4x1024x512 : S4x1024x1.Broadcasts S4x1024x512
  broadcasts_S4x1x512_S4x1024x512 : S4x1x512.Broadcasts S4x1024x512
  reduces_S4x1024x512_S4x1024 : S4x1024x512.Reduces [2] S4x1024
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  dot_S4x1024x3_S4x512x3_S4x1024x512_2_2_1_1_0_0_wf : DotDims.WF S4x1024x3 S4x512x3 S4x1024x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S4x8192x3.size a
  hwx0_0 : ∀ i : grid0.Coords, EltTy.bits .f32 = 32 ∨ (Rect.block (s := S4x8192x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x3.size a ≤ S4x8192x3.size a
  hwx1_0 : ∀ i : grid1.Coords, EltTy.bits .f32 = 32 ∨ (Rect.block (s := S4x8192x3) S4x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1024.size a ≤ S4x8192.size a
  hwx1_2 : ∀ i : grid1.Coords, EltTy.bits .f32 = 32 ∨ (Rect.block (s := S4x8192) S4x1024.size (cc1_transform_2 i) (hinb1_2 i)).WholeWords (EltTy.packing .f32)

variable [Facts₀]

def dot_S4x1024x3_S4x512x3_S4x1024x512_2_2_1_1_0_0 : DotDims S4x1024x3 S4x512x3 S4x1024x512 where
  lhsContracting := [2]
  rhsContracting := [2]
  lhsNonContracting := [1]
  rhsNonContracting := [1]
  lhsBatch := [0]
  rhsBatch := [0]
  wf := dot_S4x1024x3_S4x512x3_S4x1024x512_2_2_1_1_0_0_wf

abbrev win0_0 : Pipeline.Window sig grid0 :=
  Pipeline.Window.ofSpec (Memref.whole main_arg0) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x8192x3 : Shape := ⟨3, ![4, 8192, 3]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x8192, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Body.lean ====
/-
  The two kernel bodies, run once per control case.

  Each body takes a source tile (4 × 1024 points), a target tile (4 × 512 points), the output block and a scratch of
  4 × 1024 running minima.  At the first point of a grid row it resets the scratch to +∞; at every point it folds the
  tile's row minima of the clamped squared distances into the scratch and then stores the scratch whole into the output
  block.  Every load and store is through the whole-buffer rectangle, so what a buffer holds afterwards is the payload
  of the last store into it, whatever it held before.
-/
import proofs.«105942_j77094662964081_1_alg».proof.Proof.Gen.Kernel.Launch
import proofs.«105942_j77094662964081_1_alg».proof.Proof.Gen.Kernel.Skeleton
import proofs.«105942_j77094662964081_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer rectangles -/

/-- The zero offsets of a rank-2 rectangle, as the printed program spells them. -/
theorem hz2 : (![0, 0] : Fin 2 → Nat) = fun _ => 0 := by funext a; fin_cases a <;> rfl
/-- The zero offsets of a rank-3 rectangle. -/
theorem hz3 : (![0, 0, 0] : Fin 3 → Nat) = fun _ => 0 := by funext a; fin_cases a <;> rfl

section Whole
variable {Val : EltTy → Type} [∀ e, Nonempty (Val e)] {S : Shape} {e : EltTy}

/-- A list of stores whose LAST store is through the whole-buffer rectangle covers the buffer. -/
theorem cover_whole_cons {off : Fin S.rank → Nat} (h : off = fun _ => 0) (inb : ∀ a, off a + S.size a ≤ S.size a)
    (w : S.Idx → Val e) (L : List (View.Piece Val S e)) :
    ∀ y, ∃ p ∈ ((⟨Rect.unit off S.size inb, w⟩ : View.Piece Val S e) :: L), y ∈ p.1.set := fun y =>
  ⟨_, List.mem_cons_self, by subst h; show y ∈ (Rect.whole S).set; rw [Rect.set_whole]; exact Finset.mem_univ y⟩

/-- A whole-buffer load after stores the last of which was a whole-buffer store reads that store's payload. -/
theorem readCov_cons_whole {sig : RefSig} {κ : Kind} {sp : Space} (v : View sig κ sp S e) {off : Fin S.rank → Nat}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_whole_cons h inb w L), View.canon_cons_unit_zero h inb w L, View.ld_unit_zero h inb w]

end Whole

/-! ## The branch on the inner grid coordinate -/

/-- The body's one branch: the inner grid coordinate is zero (the printed scalar chain). -/
abbrev cond0 (i : grid0.Coords) : Prop := (Scalar.cmpi .ne (Scalar.extui (Scalar.cmpi .eq (BitVec.ofNat 32 (i 1).val) 0#32)) 0#32) = 1#1
/-- It holds at the points ≡ 0 (mod 16): the first point of each of the 8 rows of 16. -/
theorem hcond0 : ∀ t : Fin cfg0.N, cond0 (grid0.coords t) ↔ t.val % 16 = 0 :=
  (by decide +kernel : ∀ t : Fin grid0.N, cond0 (grid0.coords t) ↔ t.val % 16 = 0)
/-- The same branch in the second kernel. -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 16 = 0 :=
  (by decide +kernel : ∀ t : Fin grid1.N, cond1 (grid1.coords t) ↔ t.val % 16 = 0)

/-! ## The first kernel -/

set_option maxHeartbeats 1000000 in
/-- The body at a point that opens a row of the grid (inner coordinate 0): the scratch is reset to +∞ and then folded
    with the tile's minima, and the output block is stored whole from it; the inputs' buffers are only read. -/
theorem sound_kernel0_A (c : Dev nD) (E : Set ℕ) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc : cond0 i) (x0 : Vec F S4x1024x3 .f32) (x1 : Vec F S4x512x3 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1 k0_pay1) ∗ owns (c : Thread nD τ) arg5 fullShare (k0_pay2 x0 x1 k0_pay1)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_whole_cons hz2 _ _ _)]
    sl_unfold_words
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]
  · iexists _; isplitr
    swap; · iexact H5
    ipureintro
    sl_unfold_words
    rw [View.read_writes_eq_canon _ _ _ (cover_whole_cons hz2 _ _ _)]
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]

set_option maxHeartbeats 1000000 in
/-- The body at any later point of a row: the scratch, found at `s`, is folded with the tile's minima, and the output
    block is stored whole from it; the inputs' buffers are only read. -/
theorem sound_kernel0_B (c : Dev nD) (E : Set ℕ) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc : ¬cond0 i) (x0 : Vec F S4x1024x3 .f32) (x1 : Vec F S4x512x3 .f32) (s : Vec F S4x1024 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 s) ∗ owns (c : Thread nD τ) arg5 fullShare (k0_pay2 x0 x1 s)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_whole_cons hz2 _ _ _)]
    sl_unfold_words
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]
  · iexists _; isplitr
    swap; · iexact H5
    ipureintro
    sl_unfold_words
    rw [View.read_writes_eq_canon _ _ _ (cover_whole_cons hz2 _ _ _)]
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]

/-! ## The second kernel -/

set_option maxHeartbeats 1000000 in
/-- The body at a point that opens a row of the grid (inner coordinate 0): the scratch is reset to +∞ and then folded
    with the tile's minima, and the output block is stored whole from it; the inputs' buffers are only read. -/
theorem sound_kernel1_A (c : Dev nD) (E : Set ℕ) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc : cond1 i) (x0 : Vec F S4x1024x3 .f32) (x1 : Vec F S4x512x3 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 x0 x1 k1_pay1) ∗ owns (c : Thread nD τ) arg5 fullShare (k1_pay2 x0 x1 k1_pay1)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_whole_cons hz2 _ _ _)]
    sl_unfold_words
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]
  · iexists _; isplitr
    swap; · iexact H5
    ipureintro
    sl_unfold_words
    rw [View.read_writes_eq_canon _ _ _ (cover_whole_cons hz2 _ _ _)]
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]

set_option maxHeartbeats 1000000 in
/-- The body at any later point of a row: the scratch, found at `s`, is folded with the tile's minima, and the output
    block is stored whole from it; the inputs' buffers are only read. -/
theorem sound_kernel1_B (c : Dev nD) (E : Set ℕ) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc : ¬cond1 i) (x0 : Vec F S4x1024x3 .f32) (x1 : Vec F S4x512x3 .f32) (s : Vec F S4x1024 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay2 x0 x1 s) ∗ owns (c : Thread nD τ) arg5 fullShare (k1_pay2 x0 x1 s)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_whole_cons hz2 _ _ _)]
    sl_unfold_words
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]
  · iexists _; isplitr
    swap; · iexact H5
    ipureintro
    sl_unfold_words
    rw [View.read_writes_eq_canon _ _ _ (cover_whole_cons hz2 _ _ _)]
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]

end Cert.Kernel.Hand

end
-- ==== Proof.K.Region0.lean ====
/-
  The first pallas_call as a pipeline region, at any contents `V` of the core's buffers when the region is entered.

  The grid has 8 × 16 points, numbered row by row: point `t` has outer coordinate `t / 16` (which source tile of 1024
  points) and inner coordinate `t % 16` (which target tile of 512 points).  The source window is fetched when the outer
  coordinate moves, the target window at every point, and the output block is written back at the last point of a row.
  The scratch carries the running minima along a row: reset at the row's first point, folded at each later one; the body
  stores it whole into the output block at every point, so what the last point of a row writes back is the row's result.
-/
import proofs.«105942_j77094662964081_1_alg».proof.Proof.Gen.Kernel.Launch
import proofs.«105942_j77094662964081_1_alg».proof.Proof.Gen.Kernel.Skeleton
import proofs.«105942_j77094662964081_1_alg».proof.Proof.Gen.Kernel.Points
import proofs.«105942_j77094662964081_1_alg».proof.Proof.K.Body
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source window's staging buffer holds its block at every point, fetched there or not: between two fetches the
    index map has not moved and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the target window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The carried scratch -/

/-- The kernel's scratch: a whole scoped buffer of its own. -/
abbrev scM0 : Memref sig .tc .vmem S4x1024 .f32 := Memref.whole cc0_scratch0

/-- What the scratch (and the output block, stored from it) holds after the body at position `n`: at the first point of
    a row the tile's minima folded into +∞; at a later point folded into what the point before left. -/
def acc0 (c : Dev nD) : (n : ℕ) → n < cfg0.N → Vec F S4x1024 .f32
  | 0, hn => k0_pay2 (iblk0 V c 0 ⟨0, hn⟩) (iblk0 V c 1 ⟨0, hn⟩) k0_pay1
  | n + 1, hn =>
    if (n + 1) % 16 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (acc0 c n (Nat.lt_of_succ_lt hn))

/-- At the first point of a row. -/
theorem acc0_reset (c : Dev nD) (t : Fin cfg0.N) (h : t.val % 16 = 0) :
    acc0 V c t.val t.isLt = k0_pay2 (iblk0 V c 0 t) (iblk0 V c 1 t) k0_pay1 := by
  obtain ⟨n, hn⟩ := t
  cases n with
  | zero => rfl
  | succ n => exact if_pos h

/-- At a later point of a row. -/
theorem acc0_step (c : Dev nD) (t : Fin cfg0.N) (h : ¬t.val % 16 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The core's scoped buffers that are neither this pipeline's staging buffers nor its scratch — the other
    pallas_call's —, each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The core's scoped buffers that are no staging buffer of this pipeline, listed with its own scratch first: the
    scratch, then the other pallas_call's staging buffers and scratch, each whole at some contents. -/
theorem scopedRest0_list (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg1_1, cc1_stg2_0, cc1_stg2_1, cc1_scratch0] (by decide) (by decide)

/-- The class's invariant with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_list]; simp only [scM0, owns_whole]; try rfl

/-- The invariant before position `n`: before the first point the class's (every scoped buffer at anything);
    afterwards the scratch at what the point before left, the other scoped buffers at anything, the generator register
    at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- The proof data of this pipeline on core `c`: the arrays as the region finds them; after the body each input's
    buffer at its block and the output's at the scratch's contents; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point.  The inputs' buffers hold their blocks; the point's position in its row says which case of
    the body runs; the invariant hands the body the scratch (at anything at the very first point, at what the point
    before left afterwards) and takes it back at this point's contents; the output's buffer, handed over at anything,
    comes back at the same contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  by_cases h0 : t.val % 16 = 0
  · rw [acc0_reset V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (sound_kernel0_A c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (sound_kernel0_A c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hz : t.val ≠ 0 := fun e => h0 (by rw [e])
    rw [acc0_step V c t h0, PhiS0_castSucc V c t, PhiS0_pos V c _ _ hz]
    iintro ⟨⟨⟨HS, Hoth⟩, Hg⟩, Ho, ⟨%d0, H0⟩, ⟨%d1, H1⟩, ⟨%d2, H2⟩⟩
    iapply (sound_kernel0_B c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hoth⟩, Hg⟩
  isplitl [HS Hoth]
  · isplitl [HS]; · iexists _; iexact HS
    iexact Hoth
  iexact Hg

end Region0

end Cert.Kernel.Hand

end
-- ==== Proof.K.Region1.lean ====
/-
  The second pallas_call as a pipeline region, at any contents `V` of the core's buffers when the region is entered.

  The grid has 8 × 16 points, numbered row by row: point `t` has outer coordinate `t / 16` (which source tile of 1024
  points) and inner coordinate `t % 16` (which target tile of 512 points).  The source window is fetched when the outer
  coordinate moves, the target window at every point, and the output block is written back at the last point of a row.
  The scratch carries the running minima along a row: reset at the row's first point, folded at each later one; the body
  stores it whole into the output block at every point, so what the last point of a row writes back is the row's result.
-/
import proofs.«105942_j77094662964081_1_alg».proof.Proof.Gen.Kernel.Launch
import proofs.«105942_j77094662964081_1_alg».proof.Proof.Gen.Kernel.Skeleton
import proofs.«105942_j77094662964081_1_alg».proof.Proof.Gen.Kernel.Points
import proofs.«105942_j77094662964081_1_alg».proof.Proof.K.Body
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The source window's staging buffer holds its block at every point, fetched there or not: between two fetches the
    index map has not moved and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the target window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The carried scratch -/

/-- The kernel's scratch: a whole scoped buffer of its own. -/
abbrev scM1 : Memref sig .tc .vmem S4x1024 .f32 := Memref.whole cc1_scratch0

/-- What the scratch (and the output block, stored from it) holds after the body at position `n`: at the first point of
    a row the tile's minima folded into +∞; at a later point folded into what the point before left. -/
def acc1 (c : Dev nD) : (n : ℕ) → n < cfg1.N → Vec F S4x1024 .f32
  | 0, hn => k1_pay2 (iblk1 V c 0 ⟨0, hn⟩) (iblk1 V c 1 ⟨0, hn⟩) k1_pay1
  | n + 1, hn =>
    if (n + 1) % 16 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- At the first point of a row. -/
theorem acc1_reset (c : Dev nD) (t : Fin cfg1.N) (h : t.val % 16 = 0) :
    acc1 V c t.val t.isLt = k1_pay2 (iblk1 V c 0 t) (iblk1 V c 1 t) k1_pay1 := by
  obtain ⟨n, hn⟩ := t
  cases n with
  | zero => rfl
  | succ n => exact if_pos h

/-- At a later point of a row. -/
theorem acc1_step (c : Dev nD) (t : Fin cfg1.N) (h : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The core's scoped buffers that are neither this pipeline's staging buffers nor its scratch — the other
    pallas_call's —, each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The core's scoped buffers that are no staging buffer of this pipeline, listed with its own scratch first: the
    scratch, then the other pallas_call's staging buffers and scratch, each whole at some contents. -/
theorem scopedRest1_list (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg1_1, cc0_stg2_0, cc0_stg2_1, cc0_scratch0] (by decide) (by decide)

/-- The class's invariant with the scratch as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_list]; simp only [scM1, owns_whole]; try rfl

/-- The invariant before position `n`: before the first point the class's (every scoped buffer at anything);
    afterwards the scratch at what the point before left, the other scoped buffers at anything, the generator register
    at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- The proof data of this pipeline on core `c`: the arrays as the region finds them; after the body each input's
    buffer at its block and the output's at the scratch's contents; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at any point.  The inputs' buffers hold their blocks; the point's position in its row says which case of
    the body runs; the invariant hands the body the scratch (at anything at the very first point, at what the point
    before left afterwards) and takes it back at this point's contents; the output's buffer, handed over at anything,
    comes back at the same contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  by_cases h0 : t.val % 16 = 0
  · rw [acc1_reset V c t h0]
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩⟩
      iapply (sound_kernel1_A c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [PhiS1_castSucc V c t, PhiS1_pos V c _ _ hz]
      iintro ⟨⟨⟨HS, Hoth⟩, Hg⟩, Ho, ⟨%d0, H0⟩, ⟨%d1, H1⟩, ⟨%d2, H2⟩⟩
      iapply (sound_kernel1_A c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hz : t.val ≠ 0 := fun e => h0 (by rw [e])
    rw [acc1_step V c t h0, PhiS1_castSucc V c t, PhiS1_pos V c _ _ hz]
    iintro ⟨⟨⟨HS, Hoth⟩, Hg⟩, Ho, ⟨%d0, H0⟩, ⟨%d1, H1⟩, ⟨%d2, H2⟩⟩
    iapply (sound_kernel1_B c Set.univ (grid1.coords t) _ _ _ _ _ _ _ _ (fun h => h0 ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hoth⟩, Hg⟩
  isplitl [HS Hoth]
  · isplitl [HS]; · iexists _; iexact HS
    iexact Hoth
  iexact Hg

end Region1

end Cert.Kernel.Hand

end
-- ==== Proof.K.Run.lean ====
/-
  The whole program's run: two pipeline regions, then fifteen host operations.

  Between two items of @main core `c` holds every unscoped buffer at named contents: the launch memory; after the first
  region the same with its arrays at what its write-backs left; after the second likewise; after the host stretch the
  fold of its operations.  Each region is entered from and left at such a state, with the generator register and the
  (empty) debt riding along.  At the end every unscoped buffer is read off the last state: the two arguments come back
  unchanged through the fold, and the result is the host tail applied to the two regions' output arrays.
-/
import proofs.«105942_j77094662964081_1_alg».proof.Proof.Gen.Kernel.Launch
import proofs.«105942_j77094662964081_1_alg».proof.Proof.Gen.Kernel.Skeleton
import proofs.«105942_j77094662964081_1_alg».proof.Proof.Gen.Kernel.Points
import proofs.«105942_j77094662964081_1_alg».proof.Proof.Gen.Kernel.Regions
import proofs.«105942_j77094662964081_1_alg».proof.Proof.K.Region0
import proofs.«105942_j77094662964081_1_alg».proof.Proof.K.Region1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W1 : Dev nD → Valuation τ sig (Elt F) := fun c b => (s₀ m ρ).mem ((c : Dev nD), b)
/-- The same read at the TensorCore's references (what the first region's proof data take). -/
abbrev V1 : (c : Dev nD) → (b : Ref sig .tc) → Buf (Elt F) ((c : Thread nD τ).loc b) := fun c b => W1 m ρ c b

/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second region's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch. -/
abbrev W4 : Dev nD → Valuation τ sig (Elt F) := fun c => StableHlo.after hostOps2 (W3 m ρ c)

/-! ## What reaches the end -/

/-- An argument is written by no host operation and is an input of both regions, so the fold at its buffer walks back
    to the launch memory. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := (W3_arr m ρ c 1).trans (((dat1 (V2 m ρ) c).arrAt_in 1 rfl _).trans (A_eq1 (V2 m ρ) c 1))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := rfl

/-- The host tail as one function of the two regions' output arrays: the mean of each over its points, their sum, the
    mean over the batch. -/
def tail (a b : (⟨S4x8192, .f32⟩ : BufTy).Contents (Elt F)) : (⟨S_, .f32⟩ : BufTy).Contents (Elt F) :=
  Host.divf (Host.reduceAdd (addf
      (Host.divf (Host.reduceAdd a (constant S_ .f32 0x00000000#32) reducesTo_S4x8192_S4_d1 h_S_) (broadcastInDim S4 ![] bcast_S_S4 (constant S_ .f32 0x46000000#32)))
      (Host.divf (Host.reduceAdd b (constant S_ .f32 0x00000000#32) reducesTo_S4x8192_S4_d1 h_S_) (broadcastInDim S4 ![] bcast_S_S4 (constant S_ .f32 0x46000000#32))))
    (constant S_ .f32 0x00000000#32) reducesTo_S4_S_d0 h_S_) (constant S_ .f32 0x40800000#32)

/-- The first region's output array is untouched by the second (it is none of its arrays). -/
theorem W3_main_v0 (c : Dev nD) : W3 m ρ c (Proc.devRef .tc main_v0) = (dat0 (V1 m ρ) c).arrAt 2 cfg0.N :=
  (W3_of_ne m ρ c main_v0 (by decide)).trans (W2_arr m ρ c 2)
theorem W3_main_v1 (c : Dev nD) : W3 m ρ c (Proc.devRef .tc main_v1) = (dat1 (V2 m ρ) c).arrAt 2 cfg1.N :=
  W3_arr m ρ c 2

/-- The result buffer after the host stretch: the tail of the two output arrays. -/
theorem W4_main_v10 (c : Dev nD) :
    W4 m ρ c (Proc.devRef .tc main_v10) = tail ((dat0 (V1 m ρ) c).arrAt 2 cfg0.N) ((dat1 (V2 m ρ) c).arrAt 2 cfg1.N) := by
  rw [← W3_main_v0 m ρ c, ← W3_main_v1 m ρ c]
  unfold tail
  show StableHlo.after hostOps2 (W3 m ρ c) (Proc.devRef .tc main_v10) = _
  after_results

/-! ## The proof data family and the thread state -/

/-- No pipeline has a prefetched table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's empty debt. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`.  Its arrays are split
    out of the unscoped buffers and put back at their exit contents; the generator register goes into the invariant and
    comes back; the scratch's contents are forgotten at the exit; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`.  Its arrays are split
    out of the unscoped buffers and put back at their exit contents; the generator register goes into the invariant and
    comes back; the scratch's contents are forgotten at the exit; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three items in order: the two regions, then the host stretch from the second region's exit contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any float instance: from any memory with zero counters every weakly fair execution of @main terminates,
    nothing faulting, and every final state holds the result at the host tail of the two regions' output arrays and both
    arguments as launched. -/
theorem run_main : θ_run defs (onTc (τ := τ) (main (F := F))) ⟨m, fun _ => 0, ρ⟩ (fun r => ∀ c : Dev nD,
      r.2.mem ((c.tc : Thread nD τ).loc main_v10) = tail ((dat0 (V1 m ρ) c).arrAt 2 cfg0.N) ((dat1 (V2 m ρ) c).arrAt 2 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W1 m ρ c) ∗ R c)) (Tₙ := Tₙ m ρ)
    (hch := ⟨fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W1 m ρ c)
        from Pipeline.unscopedBufs_held c (W1 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v10 (by decide))).trans (W4_main_v10 m ρ c),
       (h c _ (mem_uc main_arg0 (by decide))).trans (W4_main_arg0 m ρ c),
       (h c _ (mem_uc main_arg1 (by decide))).trans (W4_main_arg1 m ρ c)⟩)

/-- THE FRAME: every weakly fair execution terminates, nothing faulting, the arguments ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Body.lean ====
/-
  The two kernel bodies, run once per control case.

  Each body takes a source tile (4 × 1024 points), a target tile (4 × 512 points), the output block and a scratch of
  4 × 1024 running minima.  At the first point of a grid row it resets the scratch to +∞; at every point it folds the
  tile's row minima of the clamped squared distances into the scratch and then stores the scratch whole into the output
  block.  Every load and store is through the whole-buffer rectangle, so what a buffer holds afterwards is the payload
  of the last store into it, whatever it held before.
-/
import proofs.«105942_j77094662964081_1_alg».proof.Proof.Gen.KernelIdeal.Launch
import proofs.«105942_j77094662964081_1_alg».proof.Proof.Gen.KernelIdeal.Skeleton
import proofs.«105942_j77094662964081_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer rectangles -/

/-- The zero offsets of a rank-2 rectangle, as the printed program spells them. -/
theorem hz2 : (![0, 0] : Fin 2 → Nat) = fun _ => 0 := by funext a; fin_cases a <;> rfl
/-- The zero offsets of a rank-3 rectangle. -/
theorem hz3 : (![0, 0, 0] : Fin 3 → Nat) = fun _ => 0 := by funext a; fin_cases a <;> rfl

section Whole
variable {Val : EltTy → Type} [∀ e, Nonempty (Val e)] {S : Shape} {e : EltTy}

/-- A list of stores whose LAST store is through the whole-buffer rectangle covers the buffer. -/
theorem cover_whole_cons {off : Fin S.rank → Nat} (h : off = fun _ => 0) (inb : ∀ a, off a + S.size a ≤ S.size a)
    (w : S.Idx → Val e) (L : List (View.Piece Val S e)) :
    ∀ y, ∃ p ∈ ((⟨Rect.unit off S.size inb, w⟩ : View.Piece Val S e) :: L), y ∈ p.1.set := fun y =>
  ⟨_, List.mem_cons_self, by subst h; show y ∈ (Rect.whole S).set; rw [Rect.set_whole]; exact Finset.mem_univ y⟩

/-- A whole-buffer load after stores the last of which was a whole-buffer store reads that store's payload. -/
theorem readCov_cons_whole {sig : RefSig} {κ : Kind} {sp : Space} (v : View sig κ sp S e) {off : Fin S.rank → Nat}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_whole_cons h inb w L), View.canon_cons_unit_zero h inb w L, View.ld_unit_zero h inb w]

end Whole

/-! ## The branch on the inner grid coordinate -/

/-- The body's one branch: the inner grid coordinate is zero (the printed scalar chain). -/
abbrev cond0 (i : grid0.Coords) : Prop := (Scalar.cmpi .ne (Scalar.extui (Scalar.cmpi .eq (BitVec.ofNat 32 (i 1).val) 0#32)) 0#32) = 1#1
/-- It holds at the points ≡ 0 (mod 16): the first point of each of the 8 rows of 16. -/
theorem hcond0 : ∀ t : Fin cfg0.N, cond0 (grid0.coords t) ↔ t.val % 16 = 0 :=
  (by decide +kernel : ∀ t : Fin grid0.N, cond0 (grid0.coords t) ↔ t.val % 16 = 0)
/-- The same branch in the second kernel. -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 16 = 0 :=
  (by decide +kernel : ∀ t : Fin grid1.N, cond1 (grid1.coords t) ↔ t.val % 16 = 0)

/-! ## The first kernel -/

set_option maxHeartbeats 1000000 in
/-- The body at a point that opens a row of the grid (inner coordinate 0): the scratch is reset to +∞ and then folded
    with the tile's minima, and the output block is stored whole from it; the inputs' buffers are only read. -/
theorem sound_kernel0_A (c : Dev nD) (E : Set ℕ) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc : cond0 i) (x0 : Vec F S4x1024x3 .f32) (x1 : Vec F S4x512x3 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1 k0_pay1) ∗ owns (c : Thread nD τ) arg5 fullShare (k0_pay2 x0 x1 k0_pay1)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_whole_cons hz2 _ _ _)]
    sl_unfold_words
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]
  · iexists _; isplitr
    swap; · iexact H5
    ipureintro
    sl_unfold_words
    rw [View.read_writes_eq_canon _ _ _ (cover_whole_cons hz2 _ _ _)]
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]

set_option maxHeartbeats 1000000 in
/-- The body at any later point of a row: the scratch, found at `s`, is folded with the tile's minima, and the output
    block is stored whole from it; the inputs' buffers are only read. -/
theorem sound_kernel0_B (c : Dev nD) (E : Set ℕ) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc : ¬cond0 i) (x0 : Vec F S4x1024x3 .f32) (x1 : Vec F S4x512x3 .f32) (s : Vec F S4x1024 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 s) ∗ owns (c : Thread nD τ) arg5 fullShare (k0_pay2 x0 x1 s)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_whole_cons hz2 _ _ _)]
    sl_unfold_words
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]
  · iexists _; isplitr
    swap; · iexact H5
    ipureintro
    sl_unfold_words
    rw [View.read_writes_eq_canon _ _ _ (cover_whole_cons hz2 _ _ _)]
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]

/-! ## The second kernel -/

set_option maxHeartbeats 1000000 in
/-- The body at a point that opens a row of the grid (inner coordinate 0): the scratch is reset to +∞ and then folded
    with the tile's minima, and the output block is stored whole from it; the inputs' buffers are only read. -/
theorem sound_kernel1_A (c : Dev nD) (E : Set ℕ) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc : cond1 i) (x0 : Vec F S4x1024x3 .f32) (x1 : Vec F S4x512x3 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 x0 x1 k1_pay1) ∗ owns (c : Thread nD τ) arg5 fullShare (k1_pay2 x0 x1 k1_pay1)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_whole_cons hz2 _ _ _)]
    sl_unfold_words
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]
  · iexists _; isplitr
    swap; · iexact H5
    ipureintro
    sl_unfold_words
    rw [View.read_writes_eq_canon _ _ _ (cover_whole_cons hz2 _ _ _)]
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]

set_option maxHeartbeats 1000000 in
/-- The body at any later point of a row: the scratch, found at `s`, is folded with the tile's minima, and the output
    block is stored whole from it; the inputs' buffers are only read. -/
theorem sound_kernel1_B (c : Dev nD) (E : Set ℕ) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc : ¬cond1 i) (x0 : Vec F S4x1024x3 .f32) (x1 : Vec F S4x512x3 .f32) (s : Vec F S4x1024 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay2 x0 x1 s) ∗ owns (c : Thread nD τ) arg5 fullShare (k1_pay2 x0 x1 s)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_whole_cons hz2 _ _ _)]
    sl_unfold_words
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]
  · iexists _; isplitr
    swap; · iexact H5
    ipureintro
    sl_unfold_words
    rw [View.read_writes_eq_canon _ _ _ (cover_whole_cons hz2 _ _ _)]
    simp only [View.canon_unit_zero (S := S4x1024) hz2, View.canon_cons_unit_zero (S := S4x1024) hz2, readCov_cons_whole (S := S4x1024) _ hz2, View.readAt_eq_ld,
      View.ld_unit_zero (S := S4x1024x3) hz3, View.ld_unit_zero (S := S4x512x3) hz3, View.ld_unit_zero (S := S4x1024) hz2]

end Cert.KernelIdeal.Hand

end
-- ==== Proof.KI.Region0.lean ====
/-
  The first pallas_call as a pipeline region, at any contents `V` of the core's buffers when the region is entered.

  The grid has 8 × 16 points, numbered row by row: point `t` has outer coordinate `t / 16` (which source tile of 1024
  points) and inner coordinate `t % 16` (which target tile of 512 points).  The source window is fetched when the outer
  coordinate moves, the target window at every point, and the output block is written back at the last point of a row.
  The scratch carries the running minima along a row: reset at the row's first point, folded at each later one; the body
  stores it whole into the output block at every point, so what the last point of a row writes back is the row's result.
-/
import proofs.«105942_j77094662964081_1_alg».proof.Proof.Gen.KernelIdeal.Launch
import proofs.«105942_j77094662964081_1_alg».proof.Proof.Gen.KernelIdeal.Skeleton
import proofs.«105942_j77094662964081_1_alg».proof.Proof.Gen.KernelIdeal.Points
import proofs.«105942_j77094662964081_1_alg».proof.Proof.KI.Body
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source window's staging buffer holds its block at every point, fetched there or not: between two fetches the
    index map has not moved and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the target window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The carried scratch -/

/-- The kernel's scratch: a whole scoped buffer of its own. -/
abbrev scM0 : Memref sig .tc .vmem S4x1024 .f32 := Memref.whole cc0_scratch0

/-- What the scratch (and the output block, stored from it) holds after the body at position `n`: at the first point of
    a row the tile's minima folded into +∞; at a later point folded into what the point before left. -/
def acc0 (c : Dev nD) : (n : ℕ) → n < cfg0.N → Vec F S4x1024 .f32
  | 0, hn => k0_pay2 (iblk0 V c 0 ⟨0, hn⟩) (iblk0 V c 1 ⟨0, hn⟩) k0_pay1
  | n + 1, hn =>
    if (n + 1) % 16 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (acc0 c n (Nat.lt_of_succ_lt hn))

/-- At the first point of a row. -/
theorem acc0_reset (c : Dev nD) (t : Fin cfg0.N) (h : t.val % 16 = 0) :
    acc0 V c t.val t.isLt = k0_pay2 (iblk0 V c 0 t) (iblk0 V c 1 t) k0_pay1 := by
  obtain ⟨n, hn⟩ := t
  cases n with
  | zero => rfl
  | succ n => exact if_pos h

/-- At a later point of a row. -/
theorem acc0_step (c : Dev nD) (t : Fin cfg0.N) (h : ¬t.val % 16 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The core's scoped buffers that are neither this pipeline's staging buffers nor its scratch — the other
    pallas_call's —, each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The core's scoped buffers that are no staging buffer of this pipeline, listed with its own scratch first: the
    scratch, then the other pallas_call's staging buffers and scratch, each whole at some contents. -/
theorem scopedRest0_list (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg1_1, cc1_stg2_0, cc1_stg2_1, cc1_scratch0] (by decide) (by decide)

/-- The class's invariant with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_list]; simp only [scM0, owns_whole]; try rfl

/-- The invariant before position `n`: before the first point the class's (every scoped buffer at anything);
    afterwards the scratch at what the point before left, the other scoped buffers at anything, the generator register
    at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- The proof data of this pipeline on core `c`: the arrays as the region finds them; after the body each input's
    buffer at its block and the output's at the scratch's contents; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point.  The inputs' buffers hold their blocks; the point's position in its row says which case of
    the body runs; the invariant hands the body the scratch (at anything at the very first point, at what the point
    before left afterwards) and takes it back at this point's contents; the output's buffer, handed over at anything,
    comes back at the same contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  by_cases h0 : t.val % 16 = 0
  · rw [acc0_reset V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (sound_kernel0_A c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (sound_kernel0_A c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hz : t.val ≠ 0 := fun e => h0 (by rw [e])
    rw [acc0_step V c t h0, PhiS0_castSucc V c t, PhiS0_pos V c _ _ hz]
    iintro ⟨⟨⟨HS, Hoth⟩, Hg⟩, Ho, ⟨%d0, H0⟩, ⟨%d1, H1⟩, ⟨%d2, H2⟩⟩
    iapply (sound_kernel0_B c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hoth⟩, Hg⟩
  isplitl [HS Hoth]
  · isplitl [HS]; · iexists _; iexact HS
    iexact Hoth
  iexact Hg

end Region0

end Cert.KernelIdeal.Hand

end
-- ==== Proof.KI.Region1.lean ====
/-
  The second pallas_call as a pipeline region, at any contents `V` of the core's buffers when the region is entered.

  The grid has 8 × 16 points, numbered row by row: point `t` has outer coordinate `t / 16` (which source tile of 1024
  points) and inner coordinate `t % 16` (which target tile of 512 points).  The source window is fetched when the outer
  coordinate moves, the target window at every point, and the output block is written back at the last point of a row.
  The scratch carries the running minima along a row: reset at the row's first point, folded at each later one; the body
  stores it whole into the output block at every point, so what the last point of a row writes back is the row's result.
-/
import proofs.«105942_j77094662964081_1_alg».proof.Proof.Gen.KernelIdeal.Launch
import proofs.«105942_j77094662964081_1_alg».proof.Proof.Gen.KernelIdeal.Skeleton
import proofs.«105942_j77094662964081_1_alg».proof.Proof.Gen.KernelIdeal.Points
import proofs.«105942_j77094662964081_1_alg».proof.Proof.KI.Body
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The source window's staging buffer holds its block at every point, fetched there or not: between two fetches the
    index map has not moved and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the target window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The carried scratch -/

/-- The kernel's scratch: a whole scoped buffer of its own. -/
abbrev scM1 : Memref sig .tc .vmem S4x1024 .f32 := Memref.whole cc1_scratch0

/-- What the scratch (and the output block, stored from it) holds after the body at position `n`: at the first point of
    a row the tile's minima folded into +∞; at a later point folded into what the point before left. -/
def acc1 (c : Dev nD) : (n : ℕ) → n < cfg1.N → Vec F S4x1024 .f32
  | 0, hn => k1_pay2 (iblk1 V c 0 ⟨0, hn⟩) (iblk1 V c 1 ⟨0, hn⟩) k1_pay1
  | n + 1, hn =>
    if (n + 1) % 16 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- At the first point of a row. -/
theorem acc1_reset (c : Dev nD) (t : Fin cfg1.N) (h : t.val % 16 = 0) :
    acc1 V c t.val t.isLt = k1_pay2 (iblk1 V c 0 t) (iblk1 V c 1 t) k1_pay1 := by
  obtain ⟨n, hn⟩ := t
  cases n with
  | zero => rfl
  | succ n => exact if_pos h

/-- At a later point of a row. -/
theorem acc1_step (c : Dev nD) (t : Fin cfg1.N) (h : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The core's scoped buffers that are neither this pipeline's staging buffers nor its scratch — the other
    pallas_call's —, each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The core's scoped buffers that are no staging buffer of this pipeline, listed with its own scratch first: the
    scratch, then the other pallas_call's staging buffers and scratch, each whole at some contents. -/
theorem scopedRest1_list (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg1_1, cc0_stg2_0, cc0_stg2_1, cc0_scratch0] (by decide) (by decide)

/-- The class's invariant with the scratch as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_list]; simp only [scM1, owns_whole]; try rfl

/-- The invariant before position `n`: before the first point the class's (every scoped buffer at anything);
    afterwards the scratch at what the point before left, the other scoped buffers at anything, the generator register
    at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- The proof data of this pipeline on core `c`: the arrays as the region finds them; after the body each input's
    buffer at its block and the output's at the scratch's contents; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at any point.  The inputs' buffers hold their blocks; the point's position in its row says which case of
    the body runs; the invariant hands the body the scratch (at anything at the very first point, at what the point
    before left afterwards) and takes it back at this point's contents; the output's buffer, handed over at anything,
    comes back at the same contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  by_cases h0 : t.val % 16 = 0
  · rw [acc1_reset V c t h0]
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩⟩
      iapply (sound_kernel1_A c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [PhiS1_castSucc V c t, PhiS1_pos V c _ _ hz]
      iintro ⟨⟨⟨HS, Hoth⟩, Hg⟩, Ho, ⟨%d0, H0⟩, ⟨%d1, H1⟩, ⟨%d2, H2⟩⟩
      iapply (sound_kernel1_A c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hz : t.val ≠ 0 := fun e => h0 (by rw [e])
    rw [acc1_step V c t h0, PhiS1_castSucc V c t, PhiS1_pos V c _ _ hz]
    iintro ⟨⟨⟨HS, Hoth⟩, Hg⟩, Ho, ⟨%d0, H0⟩, ⟨%d1, H1⟩, ⟨%d2, H2⟩⟩
    iapply (sound_kernel1_B c Set.univ (grid1.coords t) _ _ _ _ _ _ _ _ (fun h => h0 ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hoth⟩, Hg⟩
  isplitl [HS Hoth]
  · isplitl [HS]; · iexists _; iexact HS
    iexact Hoth
  iexact Hg

end Region1

end Cert.KernelIdeal.Hand

end
-- ==== Proof.KI.Run.lean ====
/-
  The whole program's run: two pipeline regions, then fifteen host operations.

  Between two items of @main core `c` holds every unscoped buffer at named contents: the launch memory; after the first
  region the same with its arrays at what its write-backs left; after the second likewise; after the host stretch the
  fold of its operations.  Each region is entered from and left at such a state, with the generator register and the
  (empty) debt riding along.  At the end every unscoped buffer is read off the last state: the two arguments come back
  unchanged through the fold, and the result is the host tail applied to the two regions' output arrays.
-/
import proofs.«105942_j77094662964081_1_alg».proof.Proof.Gen.KernelIdeal.Launch
import proofs.«105942_j77094662964081_1_alg».proof.Proof.Gen.KernelIdeal.Skeleton
import proofs.«105942_j77094662964081_1_alg».proof.Proof.Gen.KernelIdeal.Points
import proofs.«105942_j77094662964081_1_alg».proof.Proof.Gen.KernelIdeal.Regions
import proofs.«105942_j77094662964081_1_alg».proof.Proof.KI.Region0
import proofs.«105942_j77094662964081_1_alg».proof.Proof.KI.Region1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W1 : Dev nD → Valuation τ sig (Elt F) := fun c b => (s₀ m ρ).mem ((c : Dev nD), b)
/-- The same read at the TensorCore's references (what the first region's proof data take). -/
abbrev V1 : (c : Dev nD) → (b : Ref sig .tc) → Buf (Elt F) ((c : Thread nD τ).loc b) := fun c b => W1 m ρ c b

/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second region's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch. -/
abbrev W4 : Dev nD → Valuation τ sig (Elt F) := fun c => StableHlo.after hostOps2 (W3 m ρ c)

/-! ## What reaches the end -/

/-- An argument is written by no host operation and is an input of both regions, so the fold at its buffer walks back
    to the launch memory. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := (W3_arr m ρ c 1).trans (((dat1 (V2 m ρ) c).arrAt_in 1 rfl _).trans (A_eq1 (V2 m ρ) c 1))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := rfl

/-- The host tail as one function of the two regions' output arrays: the mean of each over its points, their sum, the
    mean over the batch. -/
def tail (a b : (⟨S4x8192, .f32⟩ : BufTy).Contents (Elt F)) : (⟨S_, .f32⟩ : BufTy).Contents (Elt F) :=
  Host.divf (Host.reduceAdd (addf
      (Host.divf (Host.reduceAdd a (constant S_ .f32 0x00000000#32) reducesTo_S4x8192_S4_d1 h_S_) (broadcastInDim S4 ![] bcast_S_S4 (constant S_ .f32 0x46000000#32)))
      (Host.divf (Host.reduceAdd b (constant S_ .f32 0x00000000#32) reducesTo_S4x8192_S4_d1 h_S_) (broadcastInDim S4 ![] bcast_S_S4 (constant S_ .f32 0x46000000#32))))
    (constant S_ .f32 0x00000000#32) reducesTo_S4_S_d0 h_S_) (constant S_ .f32 0x40800000#32)

/-- The first region's output array is untouched by the second (it is none of its arrays). -/
theorem W3_main_v0 (c : Dev nD) : W3 m ρ c (Proc.devRef .tc main_v0) = (dat0 (V1 m ρ) c).arrAt 2 cfg0.N :=
  (W3_of_ne m ρ c main_v0 (by decide)).trans (W2_arr m ρ c 2)
theorem W3_main_v1 (c : Dev nD) : W3 m ρ c (Proc.devRef .tc main_v1) = (dat1 (V2 m ρ) c).arrAt 2 cfg1.N :=
  W3_arr m ρ c 2

/-- The result buffer after the host stretch: the tail of the two output arrays. -/
theorem W4_main_v10 (c : Dev nD) :
    W4 m ρ c (Proc.devRef .tc main_v10) = tail ((dat0 (V1 m ρ) c).arrAt 2 cfg0.N) ((dat1 (V2 m ρ) c).arrAt 2 cfg1.N) := by
  rw [← W3_main_v0 m ρ c, ← W3_main_v1 m ρ c]
  unfold tail
  show StableHlo.after hostOps2 (W3 m ρ c) (Proc.devRef .tc main_v10) = _
  after_results

/-! ## The proof data family and the thread state -/

/-- No pipeline has a prefetched table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's empty debt. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`.  Its arrays are split
    out of the unscoped buffers and put back at their exit contents; the generator register goes into the invariant and
    comes back; the scratch's contents are forgotten at the exit; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`.  Its arrays are split
    out of the unscoped buffers and put back at their exit contents; the generator register goes into the invariant and
    comes back; the scratch's contents are forgotten at the exit; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three items in order: the two regions, then the host stretch from the second region's exit contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any float instance: from any memory with zero counters every weakly fair execution of @main terminates,
    nothing faulting, and every final state holds the result at the host tail of the two regions' output arrays and both
    arguments as launched. -/
theorem run_main : θ_run defs (onTc (τ := τ) (main (F := F))) ⟨m, fun _ => 0, ρ⟩ (fun r => ∀ c : Dev nD,
      r.2.mem ((c.tc : Thread nD τ).loc main_v10) = tail ((dat0 (V1 m ρ) c).arrAt 2 cfg0.N) ((dat1 (V2 m ρ) c).arrAt 2 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W1 m ρ c) ∗ R c)) (Tₙ := Tₙ m ρ)
    (hch := ⟨fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W1 m ρ c)
        from Pipeline.unscopedBufs_held c (W1 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v10 (by decide))).trans (W4_main_v10 m ρ c),
       (h c _ (mem_uc main_arg0 (by decide))).trans (W4_main_arg0 m ρ c),
       (h c _ (mem_uc main_arg1 (by decide))).trans (W4_main_arg1 m ρ c)⟩)

/-- THE FRAME: every weakly fair execution terminates, nothing faulting, the arguments ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Spec.lean ====
/-
  The mathematics both programs compute, stated once over the extended reals.

  A cloud is an array of 4 batches of 8192 points in 3 coordinates.  For a source cloud `s` and a target cloud `d`,
  the clamped squared distance between point `n` of `s` and point `m` of `d` (same batch) is
  `max (‖s n‖² + ‖d m‖² − 2·⟨s n, d m⟩) 0`, and `nearest s d b n` is its minimum over all 8192 target points, folded
  from the word of +∞.  The three float words (2, 0, +∞) are kept as their bit patterns: the same word stands on both
  sides of every equation here, so none is ever evaluated.
-/
import Idealize.ShloMosaic.PureOps.Ideal
import Idealize.ShloMosaic.Lib.ValueIdx

noncomputable section

namespace Cert.Chamfer

open Idealize.ShloMosaic Idealize.ShloMosaic.ValueIdx
open scoped BigOperators

/-- The word of `2.0`. -/
abbrev two : EReal := Ideal.ofBits .f32 0x40000000#32
/-- The word of `0.0`. -/
abbrev zero : EReal := Ideal.ofBits .f32 0x00000000#32
/-- The word of `+∞`. -/
abbrev top : EReal := Ideal.ofBits .f32 0x7F800000#32

/-- A cloud: 4 batches of 8192 points with 3 coordinates. -/
abbrev Cloud : Type := (⟨3, ![4, 8192, 3]⟩ : Shape).Idx → EReal

/-- The squared norm of point `n` of batch `b`. -/
def sqn (s : Cloud) (b : Fin 4) (n : Fin 8192) : EReal := ∑ k : Fin 3, s (ix3 b n k) * s (ix3 b n k)

/-- The inner product of point `n` of `s` with point `m` of `d`. -/
def dot (s d : Cloud) (b : Fin 4) (n m : Fin 8192) : EReal := ∑ k : Fin 3, s (ix3 b n k) * d (ix3 b m k)

/-- The clamped squared distance, in the arrangement both programs use: ‖s‖² + ‖d‖² − 2⟨s, d⟩, then `max · 0`. -/
def cdist (s d : Cloud) (b : Fin 4) (n m : Fin 8192) : EReal :=
  max (sqn s b n + sqn d b m - two * dot s d b n m) zero

/-- The distance from point `n` of `s` to the nearest point of `d`: the minimum over the target points, from +∞. -/
def nearest (s d : Cloud) (b : Fin 4) (n : Fin 8192) : EReal :=
  (Finset.univ : Finset (Fin 8192)).fold min top (fun m => cdist s d b n m)

/-- The same as an array over (batch, point). -/
def nn (s d : Cloud) : (⟨2, ![4, 8192]⟩ : Shape).Idx → EReal := fun j => nearest s d (j 0) (j 1)

theorem nn_ix2 (s d : Cloud) (b : Fin 4) (n : Fin 8192) : nn s d (ix2 b n) = nearest s d b n := rfl

/-- The inner product is symmetric. -/
theorem dot_comm (s d : Cloud) (b : Fin 4) (n m : Fin 8192) : dot s d b n m = dot d s b m n :=
  Finset.sum_congr rfl fun k _ => mul_comm _ _

/-- The clamped squared distance is symmetric in its two points: the sum of the two squared norms commutes, and so
    does the inner product. -/
theorem cdist_comm (s d : Cloud) (b : Fin 4) (n m : Fin 8192) : cdist s d b n m = cdist d s b m n := by
  unfold cdist
  rw [add_comm (sqn s b n) (sqn d b m), dot_comm s d b n m]

end Cert.Chamfer

end
-- ==== Proof.Tile.lean ====
/-
  The kernel's tile arithmetic, read at an index over the extended reals.

  On a source tile x (4 batches of 1024 points in 3 coordinates), a target tile y (4 batches of 512 points) and a carried
  row of running minima a (4 x 1024), the kernel body stores min(a, m) where m[b, r] is the minimum over the 512 target
  points q, folded from the word of +inf, of max(|x[b,r]|^2 + |y[b,q]|^2 - 2 <x[b,r], y[b,q]>, 0).  Each array operation
  of that body is read here at one index: the batched product as a sum over the three coordinates, the two squared norms
  as sums over the lane axis, the two keep-dims reshapes and the two broadcasts as a change of index, and the lane
  minimum as a fold of min over the 512 target points.  The three float words (2, 0, +inf) are never evaluated.
-/
import proofs.«105942_j77094662964081_1_alg».proof.Proof.Gen.KernelIdeal.Skeleton
import proofs.«105942_j77094662964081_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.Chamfer.Tile

open Idealize.ShloMosaic Idealize.ShloMosaic.ValueIdx Idealize.SL.Sem
open Cert.KernelIdeal Cert.KernelIdeal.Gen
open scoped BigOperators

/-- the clamped squared distance inside one tile pair -/
def tdist (x : FVec Ideal Cert.KernelIdeal.S4x1024x3 .f32) (y : FVec Ideal Cert.KernelIdeal.S4x512x3 .f32) (b : Fin 4) (r : Fin 1024) (q : Fin 512) : EReal :=
  max ((∑ k : Fin 3, x (ix3 b r k) * x (ix3 b r k)) + (∑ k : Fin 3, y (ix3 b q k) * y (ix3 b q k)) - Cert.Chamfer.two * ∑ k : Fin 3, x (ix3 b r k) * y (ix3 b q k)) Cert.Chamfer.zero

/-! ## The index a one-axis reduction inserts -/

/-- Over (b, r) of a [4, 1024] result, coordinate k inserted on the last axis of a [4, 1024, 3] source is (b, r, k). -/
theorem lift_src (b : Fin 4) (r : Fin 1024) (k : Fin 3) :
    reduces_S4x1024x3_S4x1024.lift (ix2 b r) k = ix3 b r k :=
  funext fun c => Fin.ext (by
    match c with
    | ⟨0, _⟩ => rfl
    | ⟨1, _⟩ => rfl
    | ⟨2, _⟩ => rfl)

/-- Over (b, q) of a [4, 512] result, coordinate k inserted on the last axis of a [4, 512, 3] source is (b, q, k). -/
theorem lift_tgt (b : Fin 4) (q : Fin 512) (k : Fin 3) :
    reduces_S4x512x3_S4x512.lift (ix2 b q) k = ix3 b q k :=
  funext fun c => Fin.ext (by
    match c with
    | ⟨0, _⟩ => rfl
    | ⟨1, _⟩ => rfl
    | ⟨2, _⟩ => rfl)

/-- Over (b, r) of a [4, 1024] result, coordinate q inserted on the last axis of a [4, 1024, 512] source is (b, r, q). -/
theorem lift_pair (b : Fin 4) (r : Fin 1024) (q : Fin 512) :
    reduces_S4x1024x512_S4x1024.lift (ix2 b r) q = ix3 b r q :=
  funext fun c => Fin.ext (by
    match c with
    | ⟨0, _⟩ => rfl
    | ⟨1, _⟩ => rfl
    | ⟨2, _⟩ => rfl)

/-! ## The two lane sums -/

/-- The sum over the coordinate axis of a source-shaped array, at (b, r). -/
theorem sum_src (v : FVec Ideal S4x1024x3 .f32) (hφ : FKind.Formats .f32)
    (hacc : (0x00000000#32 : BitVec 32) = FKind.add.neutral .f32 hφ) (b : Fin 4) (r : Fin 1024) :
    multiReduction .add [2] S4x1024 v 0x00000000#32 reduces_S4x1024x3_S4x1024 hφ hacc (ix2 b r)
      = ∑ k : Fin 3, v (ix3 b r k) :=
  (Ideal.multiReduction_add_single v _ reduces_S4x1024x3_S4x1024 hφ hacc (ix2 b r)).trans
    (Finset.sum_congr rfl fun k _ => congrArg v (lift_src b r k))

/-- The sum over the coordinate axis of a target-shaped array, at (b, q). -/
theorem sum_tgt (v : FVec Ideal S4x512x3 .f32) (hφ : FKind.Formats .f32)
    (hacc : (0x00000000#32 : BitVec 32) = FKind.add.neutral .f32 hφ) (b : Fin 4) (q : Fin 512) :
    multiReduction .add [2] S4x512 v 0x00000000#32 reduces_S4x512x3_S4x512 hφ hacc (ix2 b q)
      = ∑ k : Fin 3, v (ix3 b q k) :=
  (Ideal.multiReduction_add_single v _ reduces_S4x512x3_S4x512 hφ hacc (ix2 b q)).trans
    (Finset.sum_congr rfl fun k _ => congrArg v (lift_tgt b q k))

/-! ## The lane minimum -/

/-- A float lane minimum over one axis, read over the extended reals: the fold of min from the accumulator's value
    over that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the 512 target points of a pair-shaped array, at (b, r), folded from the word of +inf. -/
theorem min_pair (v : FVec Ideal S4x1024x512 .f32) (hφ : FKind.Formats .f32)
    (hacc : (0x7F800000#32 : BitVec 32) = FKind.minimumf.neutral .f32 hφ) (b : Fin 4) (r : Fin 1024) :
    multiReduction .minimumf [2] S4x1024 v 0x7F800000#32 reduces_S4x1024x512_S4x1024 hφ hacc (ix2 b r)
      = (Finset.univ : Finset (Fin 512)).fold min Cert.Chamfer.top (fun q => v (ix3 b r q)) :=
  (multiReduction_minimumf_single v _ reduces_S4x1024x512_S4x1024 hφ hacc (ix2 b r)).trans
    (Finset.fold_congr fun q _ => congrArg v (lift_pair b r q))

/-! ## The keep-dims reshapes and the broadcasts -/

/-- A [4, 1024] array viewed as a column [4, 1024, 1] reads (b, r) at (b, r, u). -/
theorem cast_col (v : FVec Ideal S4x1024 .f32) (h : S4x1024.ShapeCasts S4x1024x1) (b : Fin 4) (r : Fin 1024)
    (u : Fin 1) : shapeCast S4x1024x1 v h (ix3 b r u) = v (ix2 b r) :=
  shapeCast_apply v h _ _ (by
    have hu : u.val = 0 := by omega
    rw [Shape.rowMajor_val_two, Shape.rowMajor_val_three]
    show b.val * 1024 + r.val = (b.val * 1024 + r.val) * 1 + u.val
    omega)

/-- A [4, 512] array viewed as a row [4, 1, 512] reads (b, q) at (b, u, q). -/
theorem cast_row (v : FVec Ideal S4x512 .f32) (h : S4x512.ShapeCasts S4x1x512) (b : Fin 4) (u : Fin 1)
    (q : Fin 512) : shapeCast S4x1x512 v h (ix3 b u q) = v (ix2 b q) :=
  shapeCast_apply v h _ _ (by
    have hu : u.val = 0 := by omega
    rw [Shape.rowMajor_val_two, Shape.rowMajor_val_three]
    show b.val * 512 + q.val = (b.val * 1 + u.val) * 512 + q.val
    omega)

/-- A column [4, 1024, 1] broadcast along the target axis reads (b, r, 0) at (b, r, q). -/
theorem bcast_col (v : FVec Ideal S4x1024x1 .f32) (h : S4x1024x1.Broadcasts S4x1024x512) (b : Fin 4)
    (r : Fin 1024) (q : Fin 512) : broadcastTo S4x1024x512 v h (ix3 b r q) = v (ix3 b r (0 : Fin 1)) :=
  broadcastTo_apply v h _ _ (fun a => match a with
    | ⟨0, _⟩ => rfl
    | ⟨1, _⟩ => rfl
    | ⟨2, _⟩ => rfl)

/-- A row [4, 1, 512] broadcast along the source axis reads (b, 0, q) at (b, r, q). -/
theorem bcast_row (v : FVec Ideal S4x1x512 .f32) (h : S4x1x512.Broadcasts S4x1024x512) (b : Fin 4)
    (r : Fin 1024) (q : Fin 512) : broadcastTo S4x1024x512 v h (ix3 b r q) = v (ix3 b (0 : Fin 1) q) :=
  broadcastTo_apply v h _ _ (fun a => match a with
    | ⟨0, _⟩ => rfl
    | ⟨1, _⟩ => rfl
    | ⟨2, _⟩ => rfl)

/-! ## The batched product

  The dimension numbers batch axis 0 of both operands, keep axis 1 of each and contract axis 2 of each: at output index
  (b, r, q) and contraction coordinate k the left operand is read at (b, r, k) and the right at (b, q, k). -/

theorem lhs_dot_0 (i : S4x1024x512.Idx) (c : Cert.KernelIdeal.dot_S4x1024x3_S4x512x3_S4x1024x512_2_2_1_1_0_0.contr.Idx) :
    (Cert.KernelIdeal.dot_S4x1024x3_S4x512x3_S4x1024x512_2_2_1_1_0_0.lhsIdx i c 0).val = (i 0).val := by
  unfold DotDims.lhsIdx
  rw [dif_pos (show (0 : Fin S4x1024x3.rank) ∈ Cert.KernelIdeal.dot_S4x1024x3_S4x512x3_S4x1024x512_2_2_1_1_0_0.lhsBatch by decide)]
  rfl
theorem lhs_dot_1 (i : S4x1024x512.Idx) (c : Cert.KernelIdeal.dot_S4x1024x3_S4x512x3_S4x1024x512_2_2_1_1_0_0.contr.Idx) :
    (Cert.KernelIdeal.dot_S4x1024x3_S4x512x3_S4x1024x512_2_2_1_1_0_0.lhsIdx i c 1).val = (i 1).val := by
  unfold DotDims.lhsIdx
  rw [dif_neg (show ¬(1 : Fin S4x1024x3.rank) ∈ Cert.KernelIdeal.dot_S4x1024x3_S4x512x3_S4x1024x512_2_2_1_1_0_0.lhsBatch by decide), dif_pos (show (1 : Fin S4x1024x3.rank) ∈ Cert.KernelIdeal.dot_S4x1024x3_S4x512x3_S4x1024x512_2_2_1_1_0_0.lhsNonContracting by decide)]
  rfl
theorem lhs_dot_2 (i : S4x1024x512.Idx) (c : Cert.KernelIdeal.dot_S4x1024x3_S4x512x3_S4x1024x512_2_2_1_1_0_0.contr.Idx) :
    (Cert.KernelIdeal.dot_S4x1024x3_S4x512x3_S4x1024x512_2_2_1_1_0_0.lhsIdx i c 2).val = (c ⟨0, by decide⟩).val :=
  Cert.KernelIdeal.dot_S4x1024x3_S4x512x3_S4x1024x512_2_2_1_1_0_0.lhsIdx_val_of_single rfl i c
theorem rhs_dot_0 (i : S4x1024x512.Idx) (c : Cert.KernelIdeal.dot_S4x1024x3_S4x512x3_S4x1024x512_2_2_1_1_0_0.contr.Idx) :
    (Cert.KernelIdeal.dot_S4x1024x3_S4x512x3_S4x1024x512_2_2_1_1_0_0.rhsIdx i c 0).val = (i 0).val := by
  unfold DotDims.rhsIdx
  rw [dif_pos (show (0 : Fin S4x512x3.rank) ∈ Cert.KernelIdeal.dot_S4x1024x3_S4x512x3_S4x1024x512_2_2_1_1_0_0.rhsBatch by decide)]
  rfl
theorem rhs_dot_1 (i : S4x1024x512.Idx) (c : Cert.KernelIdeal.dot_S4x1024x3_S4x512x3_S4x1024x512_2_2_1_1_0_0.contr.Idx) :
    (Cert.KernelIdeal.dot_S4x1024x3_S4x512x3_S4x1024x512_2_2_1_1_0_0.rhsIdx i c 1).val = (i 2).val := by
  unfold DotDims.rhsIdx
  rw [dif_neg (show ¬(1 : Fin S4x512x3.rank) ∈ Cert.KernelIdeal.dot_S4x1024x3_S4x512x3_S4x1024x512_2_2_1_1_0_0.rhsBatch by decide), dif_pos (show (1 : Fin S4x512x3.rank) ∈ Cert.KernelIdeal.dot_S4x1024x3_S4x512x3_S4x1024x512_2_2_1_1_0_0.rhsNonContracting by decide)]
  rfl
theorem rhs_dot_2 (i : S4x1024x512.Idx) (c : Cert.KernelIdeal.dot_S4x1024x3_S4x512x3_S4x1024x512_2_2_1_1_0_0.contr.Idx) :
    (Cert.KernelIdeal.dot_S4x1024x3_S4x512x3_S4x1024x512_2_2_1_1_0_0.rhsIdx i c 2).val = (c ⟨0, by decide⟩).val :=
  Cert.KernelIdeal.dot_S4x1024x3_S4x512x3_S4x1024x512_2_2_1_1_0_0.rhsIdx_val_of_single rfl i c

/-- The batched product into the zero splat, at (b, r, q): the inner product of point r of x with point q of y. -/
theorem dot_pair (x : FVec Ideal S4x1024x3 .f32) (y : FVec Ideal S4x512x3 .f32) (b : Fin 4) (r : Fin 1024)
    (q : Fin 512) :
    matmul Cert.KernelIdeal.dot_S4x1024x3_S4x512x3_S4x1024x512_2_2_1_1_0_0 none x y (constant S4x1024x512 .f32 0x00000000#32) (ix3 b r q)
      = ∑ k : Fin 3, x (ix3 b r k) * y (ix3 b q k) := by
  refine (Ideal.matmul_constant_zero_apply Cert.KernelIdeal.dot_S4x1024x3_S4x512x3_S4x1024x512_2_2_1_1_0_0 none x y (ix3 b r q)).trans ?_
  rw [← Equiv.sum_comp (ValueIdx.contrEquiv1 Cert.KernelIdeal.dot_S4x1024x3_S4x512x3_S4x1024x512_2_2_1_1_0_0 3 rfl rfl).symm]
  refine Finset.sum_congr rfl fun k _ => ?_
  have hk := ValueIdx.contrEquiv1_symm_val Cert.KernelIdeal.dot_S4x1024x3_S4x512x3_S4x1024x512_2_2_1_1_0_0 3 rfl rfl k
  have el : Cert.KernelIdeal.dot_S4x1024x3_S4x512x3_S4x1024x512_2_2_1_1_0_0.lhsIdx (ix3 b r q) ((ValueIdx.contrEquiv1 Cert.KernelIdeal.dot_S4x1024x3_S4x512x3_S4x1024x512_2_2_1_1_0_0 3 rfl rfl).symm k) = ix3 b r k := funext fun a => Fin.ext (by
    match a with
    | ⟨0, _⟩ => exact lhs_dot_0 _ _
    | ⟨1, _⟩ => exact lhs_dot_1 _ _
    | ⟨2, _⟩ => exact (lhs_dot_2 _ _).trans hk)
  have er : Cert.KernelIdeal.dot_S4x1024x3_S4x512x3_S4x1024x512_2_2_1_1_0_0.rhsIdx (ix3 b r q) ((ValueIdx.contrEquiv1 Cert.KernelIdeal.dot_S4x1024x3_S4x512x3_S4x1024x512_2_2_1_1_0_0 3 rfl rfl).symm k) = ix3 b q k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-! ## The two payloads at an index -/

theorem pay1_apply (j : Cert.KernelIdeal.S4x1024.Idx) : Cert.KernelIdeal.Gen.k0_pay1 (F := Ideal) j = Cert.Chamfer.top := by
  unfold Cert.KernelIdeal.Gen.k0_pay1
  exact congrFun (shapeCast_self _ _) j

theorem pay2_apply (x : FVec Ideal Cert.KernelIdeal.S4x1024x3 .f32) (y : FVec Ideal Cert.KernelIdeal.S4x512x3 .f32) (a : FVec Ideal Cert.KernelIdeal.S4x1024 .f32) (b : Fin 4) (r : Fin 1024) :
    Cert.KernelIdeal.Gen.k0_pay2 (F := Ideal) x y a (ix2 b r) = min (a (ix2 b r)) ((Finset.univ : Finset (Fin 512)).fold min Cert.Chamfer.top (fun q => tdist x y b r q)) := by
  unfold Cert.KernelIdeal.Gen.k0_pay2
  refine (congrFun (shapeCast_self _ _) (ix2 b r)).trans ?_
  refine congrArg (min (a (ix2 b r))) ?_
  refine (min_pair _ _ _ b r).trans ?_
  refine Finset.fold_congr fun q _ => ?_
  -- the clamp, the difference and the sum are pointwise; each summand is one of the readings above
  unfold tdist
  refine congrArg₂ max ?_ rfl
  refine congrArg₂ (fun u v : EReal => u - v) ?_ ?_
  · refine congrArg₂ (fun u v : EReal => u + v) ?_ ?_
    · exact (bcast_col _ _ b r q).trans ((cast_col _ _ b r 0).trans (sum_src _ _ _ b r))
    · exact (bcast_row _ _ b r q).trans ((cast_row _ _ b 0 q).trans (sum_tgt _ _ _ b q))
  · exact congrArg (fun v : EReal => Cert.Chamfer.two * v) (dot_pair x y b r q)

/-! ## The second kernel's payloads are the first's: the two bodies have the same text -/

theorem k1_pay1_eq : Cert.KernelIdeal.Gen.k1_pay1 (F := Ideal) = Cert.KernelIdeal.Gen.k0_pay1 (F := Ideal) := rfl

theorem k1_pay2_eq (x : FVec Ideal Cert.KernelIdeal.S4x1024x3 .f32) (y : FVec Ideal Cert.KernelIdeal.S4x512x3 .f32)
    (a : FVec Ideal Cert.KernelIdeal.S4x1024 .f32) :
    Cert.KernelIdeal.Gen.k1_pay2 (F := Ideal) x y a = Cert.KernelIdeal.Gen.k0_pay2 (F := Ideal) x y a := rfl

end Cert.Chamfer.Tile

end
-- ==== Proof.MinFold.lean ====
import Mathlib.Data.Finset.Fold
import Mathlib.Data.Fintype.Basic
import Mathlib.Order.Basic
import Mathlib.Order.Lattice

/-!
# A minimum folded tile by tile equals the minimum folded at once

A row of 8192 values is cut into 16 consecutive tiles of 512.  A running value starts as
`min c (fold of tile 0)` and at every later tile becomes `min (previous) (fold of that tile)`,
each tile fold starting from the same bound `c`.  After the last tile the running value is the
fold of `min` over the whole row started at `c`.

The proof characterises both sides by their lower bounds: `x` is below a fold of minima iff it
is below the starting value and below every folded entry.  By induction on the tile number, `x`
is below the running value after tile `j` iff `x ≤ c` and `x ≤ g m` for every `m` below
`512 * (j + 1)`; an index below `512 * (j + 2)` is either below `512 * (j + 1)` or of the form
`512 * (j + 1) + q` with `q < 512`.  At `j = 15` the bound `512 * 16 = 8192` covers every index.
-/

namespace Cert.Chamfer

theorem fold_tiles {α : Type*} [LinearOrder α] (c : α) (g : Fin 8192 → α) (A : ℕ → α)
    (h0 : A 0 = min c ((Finset.univ : Finset (Fin 512)).fold min c (fun q => g ⟨q.val, by omega⟩)))
    (hs : ∀ j : ℕ, (hj : j + 1 < 16) → A (j + 1) = min (A j) ((Finset.univ : Finset (Fin 512)).fold min c (fun q => g ⟨512 * (j + 1) + q.val, by omega⟩))) :
    A 15 = (Finset.univ : Finset (Fin 8192)).fold min c g := by
  -- lower bounds of the running value after tile `j`
  have inv : ∀ j : ℕ, j < 16 → ∀ x : α,
      x ≤ A j ↔ x ≤ c ∧ ∀ m : Fin 8192, m.val < 512 * (j + 1) → x ≤ g m := by
    intro j
    induction j with
    | zero =>
      intro _ x
      rw [h0, le_min_iff, Finset.le_fold_min]
      constructor
      · rintro ⟨hc, _, hq⟩
        refine ⟨hc, fun m hm => ?_⟩
        exact hq ⟨m.val, by omega⟩ (Finset.mem_univ _)
      · rintro ⟨hc, hm⟩
        refine ⟨hc, hc, fun q _ => hm _ ?_⟩
        show q.val < 512 * (0 + 1)
        omega
    | succ j ih =>
      intro hj x
      rw [hs j hj, le_min_iff, ih (by omega), Finset.le_fold_min]
      constructor
      · rintro ⟨⟨hc, hlo⟩, _, hq⟩
        refine ⟨hc, fun m hm => ?_⟩
        by_cases h : m.val < 512 * (j + 1)
        · exact hlo m h
        · -- `m = 512 * (j + 1) + q` with `q = m - 512 * (j + 1) < 512`
          have hq' := hq ⟨m.val - 512 * (j + 1), by omega⟩ (Finset.mem_univ _)
          have e : (⟨512 * (j + 1) + (m.val - 512 * (j + 1)), by omega⟩ : Fin 8192) = m :=
            Fin.ext (by show 512 * (j + 1) + (m.val - 512 * (j + 1)) = m.val; omega)
          exact e ▸ hq'
      · rintro ⟨hc, hm⟩
        refine ⟨⟨hc, fun m h => hm m (by omega)⟩, hc, fun q _ => hm _ ?_⟩
        show 512 * (j + 1) + q.val < 512 * (j + 1 + 1)
        omega
  -- at the last tile every index qualifies
  refine eq_of_forall_le_iff fun x => ?_
  rw [inv 15 (by omega), Finset.le_fold_min]
  constructor
  · rintro ⟨hc, hm⟩
    exact ⟨hc, fun m _ => hm m (by omega)⟩
  · rintro ⟨hc, hm⟩
    exact ⟨hc, fun m _ => hm m (Finset.mem_univ _)⟩

end Cert.Chamfer
-- ==== Proof.KI.Value0.lean ====
/-
  What the first kernel leaves in its output array, over the extended reals: the nearest-neighbour array.

  Point t of the 8 x 16 grid has outer coordinate t / 16 (the source tile, 1024 points) and inner coordinate t % 16
  (the target tile, 512 points).  The source block at t is rows [1024 (t/16), 1024 (t/16 + 1)) of the source cloud, the
  target block rows [512 (t%16), 512 (t%16 + 1)) of the target cloud, so the tile's clamped squared distance between
  row r of the source block and row q of the target block is the clouds' between points 1024 (t/16) + r and
  512 (t%16) + q.  Along a row of the grid the carried minima start, at the first point, as min(+inf, fold over tile 0)
  and at every later point take the minimum with the fold over that point's tile; a minimum folded tile by tile over 16
  tiles of 512 is the minimum folded over all 8192 target points.  So after the last point of grid row i the carried
  array holds, at (b, r), the distance from point 1024 i + r of batch b to its nearest target point, and that is what
  the point writes back into rows [1024 i, 1024 (i+1)) of the output array.  The eight write-backs tile the array.
-/
import proofs.«105942_j77094662964081_1_alg».proof.Proof.KI.Region0
import proofs.«105942_j77094662964081_1_alg».proof.Proof.Tile
import proofs.«105942_j77094662964081_1_alg».proof.Proof.MinFold
import proofs.«105942_j77094662964081_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

section Value0

variable (V : (c : Dev nD) → (b : Ref sig .tc) → Buf (Elt Ideal) ((c : Thread nD τ).loc b))

/-! ## The index maps, decided once over the grid -/

/-- The source window's block index at point `t`: (0, t / 16, 0). -/
theorem idx0_0 : ∀ t : Fin cfg0.N, win0_0.index t (0 : Fin 3) = 0 ∧ win0_0.index t (1 : Fin 3) = t.val / 16 ∧ win0_0.index t (2 : Fin 3) = 0 :=
  (by decide +kernel : ∀ t : Fin grid0.N, _)
/-- The target window's: (0, t % 16, 0). -/
theorem idx0_1 : ∀ t : Fin cfg0.N, win0_1.index t (0 : Fin 3) = 0 ∧ win0_1.index t (1 : Fin 3) = t.val % 16 ∧ win0_1.index t (2 : Fin 3) = 0 :=
  (by decide +kernel : ∀ t : Fin grid0.N, _)
/-- The output window's: (0, t / 16). -/
theorem idx0_2 : ∀ t : Fin cfg0.N, win0_2.index t (0 : Fin 2) = 0 ∧ win0_2.index t (1 : Fin 2) = t.val / 16 :=
  (by decide +kernel : ∀ t : Fin grid0.N, _)

/-- Row `r` of the source block at point `t` is a row of the cloud. -/
theorem row_lt (t : Fin cfg0.N) (r : Fin 1024) : 1024 * (t.val / 16) + r.val < 8192 := by
  have hN : cfg0.N = 128 := N_0
  have := t.isLt; have := r.isLt; omega

/-- Row `q` of the target block at point `t` is a row of the cloud. -/
theorem col_lt (t : Fin cfg0.N) (q : Fin 512) : 512 * (t.val % 16) + q.val < 8192 := by
  have := q.isLt; omega

/-! ## The input blocks read at an index -/

/-- The source block at point `t` reads the source cloud at rows 1024 (t / 16) + r. -/
theorem iblk0_src (c : Dev nD) (t : Fin cfg0.N) (b : Fin 4) (r : Fin 1024) (k : Fin 3) :
    (iblk0 V c 0 t : S4x1024x3.Idx → Elt Ideal .f32) (ix3 b r k)
      = (V c main_arg0 : S4x8192x3.Idx → Elt Ideal .f32) (ix3 b ⟨1024 * (t.val / 16) + r.val, row_lt t r⟩ k) := by
  obtain ⟨e0, e1, e2⟩ := idx0_0 t
  unfold iblk0
  rw [View.read_apply]
  show V c main_arg0 _ = V c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 1024 + 1 * r.val = 1024 * (t.val / 16) + r.val; rw [e1]; omega
  | ⟨2, _⟩ => show win0_0.index t (2 : Fin 3) * 3 + 1 * k.val = k.val; rw [e2]; omega

/-- The target block at point `t` reads the target cloud at rows 512 (t % 16) + q. -/
theorem iblk0_tgt (c : Dev nD) (t : Fin cfg0.N) (b : Fin 4) (q : Fin 512) (k : Fin 3) :
    (iblk0 V c 1 t : S4x512x3.Idx → Elt Ideal .f32) (ix3 b q k)
      = (V c main_arg1 : S4x8192x3.Idx → Elt Ideal .f32) (ix3 b ⟨512 * (t.val % 16) + q.val, col_lt t q⟩ k) := by
  obtain ⟨e0, e1, e2⟩ := idx0_1 t
  unfold iblk0
  rw [View.read_apply]
  show V c main_arg1 _ = V c main_arg1 _
  congr 1
  funext a
  apply Fin.ext
  match a with
  | ⟨0, _⟩ => show win0_1.index t (0 : Fin 3) * 4 + 1 * b.val = b.val; rw [e0]; omega
  | ⟨1, _⟩ => show win0_1.index t (1 : Fin 3) * 512 + 1 * q.val = 512 * (t.val % 16) + q.val; rw [e1]; omega
  | ⟨2, _⟩ => show win0_1.index t (2 : Fin 3) * 3 + 1 * k.val = k.val; rw [e2]; omega

/-! ## A tile's distances are the clouds' -/

/-- The clamped squared distance inside the tile pair of point `t` is the clouds' between the points the two blocks'
    rows are. -/
theorem tdist_eq (c : Dev nD) (t : Fin cfg0.N) (b : Fin 4) (r : Fin 1024) (q : Fin 512) :
    Cert.Chamfer.Tile.tdist (iblk0 V c 0 t) (iblk0 V c 1 t) b r q
      = Cert.Chamfer.cdist (V c main_arg0) (V c main_arg1) b ⟨1024 * (t.val / 16) + r.val, row_lt t r⟩ ⟨512 * (t.val % 16) + q.val, col_lt t q⟩ := by
  unfold Cert.Chamfer.Tile.tdist Cert.Chamfer.cdist Cert.Chamfer.sqn Cert.Chamfer.dot
  simp only [iblk0_src V c t, iblk0_tgt V c t]

/-! ## The carried minima along a row of the grid -/

/-- The carried array depends on the position only, not on how the position is written. -/
theorem acc0_congr (c : Dev nD) {n n' : ℕ} (e : n = n') (hn : n < cfg0.N) (hn' : n' < cfg0.N) :
    acc0 V c n hn = acc0 V c n' hn' := by
  subst e; rfl

/-- The fold over the tile of the point at position `16 i + j`, as a fold of the clouds' distances over target points
    512 j + q. -/
theorem tile_fold (c : Dev nD) (i j : ℕ) (hi : i < 8) (hj : j < 16) (hn : 16 * i + j < cfg0.N) (b : Fin 4) (r : Fin 1024) :
    (Finset.univ : Finset (Fin 512)).fold min Cert.Chamfer.top
        (fun q => Cert.Chamfer.Tile.tdist (iblk0 V c 0 ⟨16 * i + j, hn⟩) (iblk0 V c 1 ⟨16 * i + j, hn⟩) b r q)
      = (Finset.univ : Finset (Fin 512)).fold min Cert.Chamfer.top
        (fun q => Cert.Chamfer.cdist (V c main_arg0) (V c main_arg1) b ⟨1024 * i + r.val, by have := r.isLt; omega⟩
          ⟨512 * j + q.val, by have := q.isLt; omega⟩) :=
  Finset.fold_congr fun q _ => (tdist_eq V c ⟨16 * i + j, hn⟩ b r q).trans
    (congrArg₂ (Cert.Chamfer.cdist (V c main_arg0) (V c main_arg1) b)
      (Fin.ext (by show 1024 * ((16 * i + j) / 16) + r.val = 1024 * i + r.val; omega))
      (Fin.ext (by show 512 * ((16 * i + j) % 16) + q.val = 512 * j + q.val; omega)))

/-- After the first point of grid row `i`: the minimum of +∞ and the fold over target tile 0. -/
theorem acc0_row_first (c : Dev nD) (i : ℕ) (hi : i < 8) (hn : 16 * i + 0 < cfg0.N) (b : Fin 4) (r : Fin 1024) :
    acc0 V c (16 * i + 0) hn (ix2 b r)
      = min Cert.Chamfer.top ((Finset.univ : Finset (Fin 512)).fold min Cert.Chamfer.top
        (fun q => Cert.Chamfer.cdist (V c main_arg0) (V c main_arg1) b ⟨1024 * i + r.val, by have := r.isLt; omega⟩
          ⟨512 * 0 + q.val, by have := q.isLt; omega⟩)) := by
  have h := acc0_reset V c ⟨16 * i + 0, hn⟩ (by show (16 * i + 0) % 16 = 0; omega)
  refine (congrFun h (ix2 b r)).trans ?_
  refine (Cert.Chamfer.Tile.pay2_apply _ _ _ b r).trans ?_
  rw [Cert.Chamfer.Tile.pay1_apply, tile_fold V c i 0 hi (by omega) hn b r]

/-- After a later point of grid row `i`: the minimum of what the point before left and the fold over target tile
    `j + 1`. -/
theorem acc0_row_next (c : Dev nD) (i j : ℕ) (hi : i < 8) (hj : j + 1 < 16) (hn : 16 * i + (j + 1) < cfg0.N)
    (hn' : 16 * i + j < cfg0.N) (b : Fin 4) (r : Fin 1024) :
    acc0 V c (16 * i + (j + 1)) hn (ix2 b r)
      = min (acc0 V c (16 * i + j) hn' (ix2 b r)) ((Finset.univ : Finset (Fin 512)).fold min Cert.Chamfer.top
        (fun q => Cert.Chamfer.cdist (V c main_arg0) (V c main_arg1) b ⟨1024 * i + r.val, by have := r.isLt; omega⟩
          ⟨512 * (j + 1) + q.val, by have := q.isLt; omega⟩)) := by
  have h := acc0_step V c ⟨16 * i + (j + 1), hn⟩ (by show ¬(16 * i + (j + 1)) % 16 = 0; omega)
  refine (congrFun h (ix2 b r)).trans ?_
  refine (Cert.Chamfer.Tile.pay2_apply _ _ _ b r).trans ?_
  rw [tile_fold V c i (j + 1) hi hj hn b r]
  exact congrArg (fun a => min a _) (congrFun (acc0_congr V c (by show 16 * i + (j + 1) - 1 = 16 * i + j; omega) _ hn') (ix2 b r))

/-- After the last point of grid row `i` the carried array holds, at (b, r), the distance from point 1024 i + r of
    batch b of the source cloud to the nearest point of the target cloud: the sixteen tile folds are the fold over all
    8192 target points. -/
theorem acc0_row_last (c : Dev nD) (i : ℕ) (hi : i < 8) (hn : 16 * i + 15 < cfg0.N) (b : Fin 4) (r : Fin 1024) :
    acc0 V c (16 * i + 15) hn (ix2 b r)
      = Cert.Chamfer.nearest (V c main_arg0) (V c main_arg1) b ⟨1024 * i + r.val, by have := r.isLt; omega⟩ := by
  have hN : cfg0.N = 128 := N_0
  have key := Cert.Chamfer.fold_tiles Cert.Chamfer.top
    (fun m => Cert.Chamfer.cdist (V c main_arg0) (V c main_arg1) b ⟨1024 * i + r.val, by have := r.isLt; omega⟩ m)
    (fun j => if h : 16 * i + j < cfg0.N then acc0 V c (16 * i + j) h (ix2 b r) else Cert.Chamfer.top)
    (by
      show (if h : 16 * i + 0 < cfg0.N then acc0 V c (16 * i + 0) h (ix2 b r) else Cert.Chamfer.top) = _
      rw [dif_pos (by omega : 16 * i + 0 < cfg0.N)]
      exact (acc0_row_first V c i hi _ b r).trans (congrArg (min Cert.Chamfer.top)
        (Finset.fold_congr fun q _ => congrArg (Cert.Chamfer.cdist (V c main_arg0) (V c main_arg1) b _) (Fin.ext (by show 512 * 0 + q.val = q.val; omega)))))
    (fun j hj => by
      show (if h : 16 * i + (j + 1) < cfg0.N then acc0 V c (16 * i + (j + 1)) h (ix2 b r) else Cert.Chamfer.top)
        = min (if h : 16 * i + j < cfg0.N then acc0 V c (16 * i + j) h (ix2 b r) else Cert.Chamfer.top) _
      rw [dif_pos (by omega : 16 * i + (j + 1) < cfg0.N), dif_pos (by omega : 16 * i + j < cfg0.N)]
      exact acc0_row_next V c i j hi hj _ _ b r)
  have h15 : (if h : 16 * i + 15 < cfg0.N then acc0 V c (16 * i + 15) h (ix2 b r) else Cert.Chamfer.top)
      = acc0 V c (16 * i + 15) hn (ix2 b r) := dif_pos hn
  exact h15.symm.trans key

/-! ## What a point writes back, and the array after the run -/

/-- What the last point of a grid row writes back is its block of the nearest-neighbour array: the block at point `t`
    is rows [1024 (t / 16), 1024 (t / 16 + 1)) of the array. -/
theorem flushed0_eq (c : Dev nD) (t : Fin cfg0.N) (hf : (cfg0.win 2).flush t = true) :
    (dat0 (F := Ideal) V c).flushed 2 t
      = ((cfg0.win 2).blk t).view.read (Elt Ideal) (Cert.Chamfer.nn (V c main_arg0) (V c main_arg1)) := by
  have hN : cfg0.N = 128 := N_0
  have h15 : t.val % 16 = 15 := (flush0_2 t).mp hf
  obtain ⟨e0, e1⟩ := idx0_2 t
  show (cfg0.win 2).cut (grid0.coords t) ((dat0 (F := Ideal) V c).after 2 t) = _
  rw [after0_2]
  funext y
  obtain ⟨b, r, rfl⟩ : ∃ (b : Fin 4) (r : Fin 1024), y = ix2 b r := ⟨y 0, y 1, eq_ix2 y⟩
  rw [View.read_apply]
  show acc0 V c t.val t.isLt (ix2 b r) = Cert.Chamfer.nn (V c main_arg0) (V c main_arg1) (((cfg0.win 2).blk t).view.emb (ix2 b r))
  have hemb : ((cfg0.win 2).blk t).view.emb (ix2 b r) = (ix2 b ⟨1024 * (t.val / 16) + r.val, row_lt t r⟩ : S4x8192.Idx) := by
    funext a
    apply Fin.ext
    match a with
    | ⟨0, _⟩ => show win0_2.index t (0 : Fin 2) * 4 + 1 * b.val = b.val; rw [e0]; omega
    | ⟨1, _⟩ => show win0_2.index t (1 : Fin 2) * 1024 + 1 * r.val = 1024 * (t.val / 16) + r.val; rw [e1]; omega
  rw [hemb, Cert.Chamfer.nn_ix2]
  have ht : t.val = 16 * (t.val / 16) + 15 := by omega
  refine (congrFun (acc0_congr V c ht t.isLt (by have := t.isLt; omega)) (ix2 b r)).trans ?_
  exact acc0_row_last V c (t.val / 16) (by have := t.isLt; omega) _ b r

/-- An index of the output array is in the block of point `t` iff each coordinate is in the block's range. -/
theorem mem_blk0_2 (t : Fin cfg0.N) (i : S4x8192.Idx) :
    i ∈ ((cfg0.win 2).blk t).view.set ↔ ∀ a : Fin 2, win0_2.index t a * S4x1024.size a ≤ (i a).val ∧ (i a).val < win0_2.index t a * S4x1024.size a + S4x1024.size a := by
  show i ∈ ((View.whole main_v0).slice (win0_2.rect t)).set ↔ _
  rw [View.set_slice_whole, Rect.mem_set_unit]
  exact Iff.rfl

/-- Every index (b, n) of the output array is in the block the last point of grid row n / 1024 writes back. -/
theorem cover0_2 (i : S4x8192.Idx) :
    ∃ t : Fin cfg0.N, (cfg0.win 2).flush t = true ∧ i ∈ ((cfg0.win 2).blk t).view.set := by
  have hN : cfg0.N = 128 := N_0
  have hi0 : (i 0).val < 4 := (i 0).isLt
  have hi1 : (i 1).val < 8192 := (i 1).isLt
  refine ⟨⟨16 * ((i 1).val / 1024) + 15, by omega⟩, (flush0_2 _).mpr (by show (16 * ((i 1).val / 1024) + 15) % 16 = 15; omega), ?_⟩
  obtain ⟨e0, e1⟩ := idx0_2 ⟨16 * ((i 1).val / 1024) + 15, by omega⟩
  rw [mem_blk0_2]
  intro a
  match a with
  | ⟨0, _⟩ =>
    show win0_2.index _ (0 : Fin 2) * 4 ≤ (i 0).val ∧ (i 0).val < win0_2.index _ (0 : Fin 2) * 4 + 4
    rw [e0]; omega
  | ⟨1, _⟩ =>
    show win0_2.index _ (1 : Fin 2) * 1024 ≤ (i 1).val ∧ (i 1).val < win0_2.index _ (1 : Fin 2) * 1024 + 1024
    rw [e1]
    show (16 * ((i 1).val / 1024) + 15) / 16 * 1024 ≤ (i 1).val ∧ (i 1).val < (16 * ((i 1).val / 1024) + 15) / 16 * 1024 + 1024
    omega

/-- The output array after the first kernel's run is the nearest-neighbour array of the two clouds as the run finds
    them. -/
theorem arrAt0 (c : Dev nD) :
    (dat0 (F := Ideal) V c).arrAt 2 cfg0.N = Cert.Chamfer.nn (V c main_arg0) (V c main_arg1) :=
  (dat0 (F := Ideal) V c).arrAt_eq_of_cover 2 (Cert.Chamfer.nn (V c main_arg0) (V c main_arg1))
    (fun t hf => flushed0_eq V c t hf) cover0_2

end Value0

end Cert.KernelIdeal.Hand

end
-- ==== Proof.Tile1.lean ====
/-
  The second kernel's body has the same arithmetic as the first's, term for term: its two payloads ARE the first's, so
  what was read at an index for the first kernel reads the same for the second.
-/
import proofs.«105942_j77094662964081_1_alg».proof.Proof.Tile

noncomputable section

namespace Cert.Chamfer.Tile

open Idealize.ShloMosaic Idealize.ShloMosaic.ValueIdx

/-- The second kernel's reset value is +∞ everywhere. -/
theorem pay1_apply_second (j : Cert.KernelIdeal.S4x1024.Idx) : Cert.KernelIdeal.Gen.k1_pay1 (F := Ideal) j = Cert.Chamfer.top :=
  (congrFun k1_pay1_eq j).trans (pay1_apply j)

/-- The second kernel's fold at an index: the carried value and the tile's minimum of clamped squared distances. -/
theorem pay2_apply_second (x : FVec Ideal Cert.KernelIdeal.S4x1024x3 .f32) (y : FVec Ideal Cert.KernelIdeal.S4x512x3 .f32)
    (a : FVec Ideal Cert.KernelIdeal.S4x1024 .f32) (b : Fin 4) (r : Fin 1024) :
    Cert.KernelIdeal.Gen.k1_pay2 (F := Ideal) x y a (ix2 b r)
      = min (a (ix2 b r)) ((Finset.univ : Finset (Fin 512)).fold min Cert.Chamfer.top (fun q => tdist x y b r q)) :=
  (congrFun (k1_pay2_eq x y a) (ix2 b r)).trans (pay2_apply x y a b r)

end Cert.Chamfer.Tile

end
-- ==== Proof.KI.Value1.lean ====
/-
  What the second kernel leaves in its output array, over the extended reals: the nearest-neighbour array.

  Point t of the 8 x 16 grid has outer coordinate t / 16 (the source tile, 1024 points) and inner coordinate t % 16
  (the target tile, 512 points).  The source block at t is rows [1024 (t/16), 1024 (t/16 + 1)) of the source cloud, the
  target block rows [512 (t%16), 512 (t%16 + 1)) of the target cloud, so the tile's clamped squared distance between
  row r of the source block and row q of the target block is the clouds' between points 1024 (t/16) + r and
  512 (t%16) + q.  Along a row of the grid the carried minima start, at the first point, as min(+inf, fold over tile 0)
  and at every later point take the minimum with the fold over that point's tile; a minimum folded tile by tile over 16
  tiles of 512 is the minimum folded over all 8192 target points.  So after the last point of grid row i the carried
  array holds, at (b, r), the distance from point 1024 i + r of batch b to its nearest target point, and that is what
  the point writes back into rows [1024 i, 1024 (i+1)) of the output array.  The eight write-backs tile the array.
-/
import proofs.«105942_j77094662964081_1_alg».proof.Proof.KI.Region1
import proofs.«105942_j77094662964081_1_alg».proof.Proof.Tile1
import proofs.«105942_j77094662964081_1_alg».proof.Proof.MinFold
import proofs.«105942_j77094662964081_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

section Value1

variable (V : (c : Dev nD) → (b : Ref sig .tc) → Buf (Elt Ideal) ((c : Thread nD τ).loc b))

/-! ## The index maps, decided once over the grid -/

/-- The source window's block index at point `t`: (0, t / 16, 0). -/
theorem idx1_0 : ∀ t : Fin cfg1.N, win1_0.index t (0 : Fin 3) = 0 ∧ win1_0.index t (1 : Fin 3) = t.val / 16 ∧ win1_0.index t (2 : Fin 3) = 0 :=
  (by decide +kernel : ∀ t : Fin grid1.N, _)
/-- The target window's: (0, t % 16, 0). -/
theorem idx1_1 : ∀ t : Fin cfg1.N, win1_1.index t (0 : Fin 3) = 0 ∧ win1_1.index t (1 : Fin 3) = t.val % 16 ∧ win1_1.index t (2 : Fin 3) = 0 :=
  (by decide +kernel : ∀ t : Fin grid1.N, _)
/-- The output window's: (0, t / 16). -/
theorem idx1_2 : ∀ t : Fin cfg1.N, win1_2.index t (0 : Fin 2) = 0 ∧ win1_2.index t (1 : Fin 2) = t.val / 16 :=
  (by decide +kernel : ∀ t : Fin grid1.N, _)

/-- Row `r` of the source block at point `t` is a row of the cloud. -/
theorem row_lt1 (t : Fin cfg1.N) (r : Fin 1024) : 1024 * (t.val / 16) + r.val < 8192 := by
  have hN : cfg1.N = 128 := N_1
  have := t.isLt; have := r.isLt; omega

/-- Row `q` of the target block at point `t` is a row of the cloud. -/
theorem col_lt1 (t : Fin cfg1.N) (q : Fin 512) : 512 * (t.val % 16) + q.val < 8192 := by
  have := q.isLt; omega

/-! ## The input blocks read at an index -/

/-- The source block at point `t` reads the source cloud at rows 1024 (t / 16) + r. -/
theorem iblk1_src (c : Dev nD) (t : Fin cfg1.N) (b : Fin 4) (r : Fin 1024) (k : Fin 3) :
    (iblk1 V c 0 t : S4x1024x3.Idx → Elt Ideal .f32) (ix3 b r k)
      = (V c main_arg1 : S4x8192x3.Idx → Elt Ideal .f32) (ix3 b ⟨1024 * (t.val / 16) + r.val, row_lt1 t r⟩ k) := by
  obtain ⟨e0, e1, e2⟩ := idx1_0 t
  unfold iblk1
  rw [View.read_apply]
  show V c main_arg1 _ = V c main_arg1 _
  congr 1
  funext a
  apply Fin.ext
  match a with
  | ⟨0, _⟩ => show win1_0.index t (0 : Fin 3) * 4 + 1 * b.val = b.val; rw [e0]; omega
  | ⟨1, _⟩ => show win1_0.index t (1 : Fin 3) * 1024 + 1 * r.val = 1024 * (t.val / 16) + r.val; rw [e1]; omega
  | ⟨2, _⟩ => show win1_0.index t (2 : Fin 3) * 3 + 1 * k.val = k.val; rw [e2]; omega

/-- The target block at point `t` reads the target cloud at rows 512 (t % 16) + q. -/
theorem iblk1_tgt (c : Dev nD) (t : Fin cfg1.N) (b : Fin 4) (q : Fin 512) (k : Fin 3) :
    (iblk1 V c 1 t : S4x512x3.Idx → Elt Ideal .f32) (ix3 b q k)
      = (V c main_arg0 : S4x8192x3.Idx → Elt Ideal .f32) (ix3 b ⟨512 * (t.val % 16) + q.val, col_lt1 t q⟩ k) := by
  obtain ⟨e0, e1, e2⟩ := idx1_1 t
  unfold iblk1
  rw [View.read_apply]
  show V c main_arg0 _ = V c main_arg0 _
  congr 1
  funext a
  apply Fin.ext
  match a with
  | ⟨0, _⟩ => show win1_1.index t (0 : Fin 3) * 4 + 1 * b.val = b.val; rw [e0]; omega
  | ⟨1, _⟩ => show win1_1.index t (1 : Fin 3) * 512 + 1 * q.val = 512 * (t.val % 16) + q.val; rw [e1]; omega
  | ⟨2, _⟩ => show win1_1.index t (2 : Fin 3) * 3 + 1 * k.val = k.val; rw [e2]; omega

/-! ## A tile's distances are the clouds' -/

/-- The clamped squared distance inside the tile pair of point `t` is the clouds' between the points the two blocks'
    rows are. -/
theorem tdist_eq1 (c : Dev nD) (t : Fin cfg1.N) (b : Fin 4) (r : Fin 1024) (q : Fin 512) :
    Cert.Chamfer.Tile.tdist (iblk1 V c 0 t) (iblk1 V c 1 t) b r q
      = Cert.Chamfer.cdist (V c main_arg1) (V c main_arg0) b ⟨1024 * (t.val / 16) + r.val, row_lt1 t r⟩ ⟨512 * (t.val % 16) + q.val, col_lt1 t q⟩ := by
  unfold Cert.Chamfer.Tile.tdist Cert.Chamfer.cdist Cert.Chamfer.sqn Cert.Chamfer.dot
  simp only [iblk1_src V c t, iblk1_tgt V c t]

/-! ## The carried minima along a row of the grid -/

/-- The carried array depends on the position only, not on how the position is written. -/
theorem acc1_congr (c : Dev nD) {n n' : ℕ} (e : n = n') (hn : n < cfg1.N) (hn' : n' < cfg1.N) :
    acc1 V c n hn = acc1 V c n' hn' := by
  subst e; rfl

/-- The fold over the tile of the point at position `16 i + j`, as a fold of the clouds' distances over target points
    512 j + q. -/
theorem tile_fold1 (c : Dev nD) (i j : ℕ) (hi : i < 8) (hj : j < 16) (hn : 16 * i + j < cfg1.N) (b : Fin 4) (r : Fin 1024) :
    (Finset.univ : Finset (Fin 512)).fold min Cert.Chamfer.top
        (fun q => Cert.Chamfer.Tile.tdist (iblk1 V c 0 ⟨16 * i + j, hn⟩) (iblk1 V c 1 ⟨16 * i + j, hn⟩) b r q)
      = (Finset.univ : Finset (Fin 512)).fold min Cert.Chamfer.top
        (fun q => Cert.Chamfer.cdist (V c main_arg1) (V c main_arg0) b ⟨1024 * i + r.val, by have := r.isLt; omega⟩
          ⟨512 * j + q.val, by have := q.isLt; omega⟩) :=
  Finset.fold_congr fun q _ => (tdist_eq1 V c ⟨16 * i + j, hn⟩ b r q).trans
    (congrArg₂ (Cert.Chamfer.cdist (V c main_arg1) (V c main_arg0) b)
      (Fin.ext (by show 1024 * ((16 * i + j) / 16) + r.val = 1024 * i + r.val; omega))
      (Fin.ext (by show 512 * ((16 * i + j) % 16) + q.val = 512 * j + q.val; omega)))

/-- After the first point of grid row `i`: the minimum of +∞ and the fold over target tile 0. -/
theorem acc1_row_first (c : Dev nD) (i : ℕ) (hi : i < 8) (hn : 16 * i + 0 < cfg1.N) (b : Fin 4) (r : Fin 1024) :
    acc1 V c (16 * i + 0) hn (ix2 b r)
      = min Cert.Chamfer.top ((Finset.univ : Finset (Fin 512)).fold min Cert.Chamfer.top
        (fun q => Cert.Chamfer.cdist (V c main_arg1) (V c main_arg0) b ⟨1024 * i + r.val, by have := r.isLt; omega⟩
          ⟨512 * 0 + q.val, by have := q.isLt; omega⟩)) := by
  have h := acc1_reset V c ⟨16 * i + 0, hn⟩ (by show (16 * i + 0) % 16 = 0; omega)
  refine (congrFun h (ix2 b r)).trans ?_
  refine (Cert.Chamfer.Tile.pay2_apply_second _ _ _ b r).trans ?_
  rw [Cert.Chamfer.Tile.pay1_apply_second, tile_fold1 V c i 0 hi (by omega) hn b r]

/-- After a later point of grid row `i`: the minimum of what the point before left and the fold over target tile
    `j + 1`. -/
theorem acc1_row_next (c : Dev nD) (i j : ℕ) (hi : i < 8) (hj : j + 1 < 16) (hn : 16 * i + (j + 1) < cfg1.N)
    (hn' : 16 * i + j < cfg1.N) (b : Fin 4) (r : Fin 1024) :
    acc1 V c (16 * i + (j + 1)) hn (ix2 b r)
      = min (acc1 V c (16 * i + j) hn' (ix2 b r)) ((Finset.univ : Finset (Fin 512)).fold min Cert.Chamfer.top
        (fun q => Cert.Chamfer.cdist (V c main_arg1) (V c main_arg0) b ⟨1024 * i + r.val, by have := r.isLt; omega⟩
          ⟨512 * (j + 1) + q.val, by have := q.isLt; omega⟩)) := by
  have h := acc1_step V c ⟨16 * i + (j + 1), hn⟩ (by show ¬(16 * i + (j + 1)) % 16 = 0; omega)
  refine (congrFun h (ix2 b r)).trans ?_
  refine (Cert.Chamfer.Tile.pay2_apply_second _ _ _ b r).trans ?_
  rw [tile_fold1 V c i (j + 1) hi hj hn b r]
  exact congrArg (fun a => min a _) (congrFun (acc1_congr V c (by show 16 * i + (j + 1) - 1 = 16 * i + j; omega) _ hn') (ix2 b r))

/-- After the last point of grid row `i` the carried array holds, at (b, r), the distance from point 1024 i + r of
    batch b of the source cloud to the nearest point of the target cloud: the sixteen tile folds are the fold over all
    8192 target points. -/
theorem acc1_row_last (c : Dev nD) (i : ℕ) (hi : i < 8) (hn : 16 * i + 15 < cfg1.N) (b : Fin 4) (r : Fin 1024) :
    acc1 V c (16 * i + 15) hn (ix2 b r)
      = Cert.Chamfer.nearest (V c main_arg1) (V c main_arg0) b ⟨1024 * i + r.val, by have := r.isLt; omega⟩ := by
  have hN : cfg1.N = 128 := N_1
  have key := Cert.Chamfer.fold_tiles Cert.Chamfer.top
    (fun m => Cert.Chamfer.cdist (V c main_arg1) (V c main_arg0) b ⟨1024 * i + r.val, by have := r.isLt; omega⟩ m)
    (fun j => if h : 16 * i + j < cfg1.N then acc1 V c (16 * i + j) h (ix2 b r) else Cert.Chamfer.top)
    (by
      show (if h : 16 * i + 0 < cfg1.N then acc1 V c (16 * i + 0) h (ix2 b r) else Cert.Chamfer.top) = _
      rw [dif_pos (by omega : 16 * i + 0 < cfg1.N)]
      exact (acc1_row_first V c i hi _ b r).trans (congrArg (min Cert.Chamfer.top)
        (Finset.fold_congr fun q _ => congrArg (Cert.Chamfer.cdist (V c main_arg1) (V c main_arg0) b _) (Fin.ext (by show 512 * 0 + q.val = q.val; omega)))))
    (fun j hj => by
      show (if h : 16 * i + (j + 1) < cfg1.N then acc1 V c (16 * i + (j + 1)) h (ix2 b r) else Cert.Chamfer.top)
        = min (if h : 16 * i + j < cfg1.N then acc1 V c (16 * i + j) h (ix2 b r) else Cert.Chamfer.top) _
      rw [dif_pos (by omega : 16 * i + (j + 1) < cfg1.N), dif_pos (by omega : 16 * i + j < cfg1.N)]
      exact acc1_row_next V c i j hi hj _ _ b r)
  have h15 : (if h : 16 * i + 15 < cfg1.N then acc1 V c (16 * i + 15) h (ix2 b r) else Cert.Chamfer.top)
      = acc1 V c (16 * i + 15) hn (ix2 b r) := dif_pos hn
  exact h15.symm.trans key

/-! ## What a point writes back, and the array after the run -/

/-- What the last point of a grid row writes back is its block of the nearest-neighbour array: the block at point `t`
    is rows [1024 (t / 16), 1024 (t / 16 + 1)) of the array. -/
theorem flushed1_eq (c : Dev nD) (t : Fin cfg1.N) (hf : (cfg1.win 2).flush t = true) :
    (dat1 (F := Ideal) V c).flushed 2 t
      = ((cfg1.win 2).blk t).view.read (Elt Ideal) (Cert.Chamfer.nn (V c main_arg1) (V c main_arg0)) := by
  have hN : cfg1.N = 128 := N_1
  have h15 : t.val % 16 = 15 := (flush1_2 t).mp hf
  obtain ⟨e0, e1⟩ := idx1_2 t
  show (cfg1.win 2).cut (grid1.coords t) ((dat1 (F := Ideal) V c).after 2 t) = _
  rw [after1_2]
  funext y
  obtain ⟨b, r, rfl⟩ : ∃ (b : Fin 4) (r : Fin 1024), y = ix2 b r := ⟨y 0, y 1, eq_ix2 y⟩
  rw [View.read_apply]
  show acc1 V c t.val t.isLt (ix2 b r) = Cert.Chamfer.nn (V c main_arg1) (V c main_arg0) (((cfg1.win 2).blk t).view.emb (ix2 b r))
  have hemb : ((cfg1.win 2).blk t).view.emb (ix2 b r) = (ix2 b ⟨1024 * (t.val / 16) + r.val, row_lt1 t r⟩ : S4x8192.Idx) := by
    funext a
    apply Fin.ext
    match a with
    | ⟨0, _⟩ => show win1_2.index t (0 : Fin 2) * 4 + 1 * b.val = b.val; rw [e0]; omega
    | ⟨1, _⟩ => show win1_2.index t (1 : Fin 2) * 1024 + 1 * r.val = 1024 * (t.val / 16) + r.val; rw [e1]; omega
  rw [hemb, Cert.Chamfer.nn_ix2]
  have ht : t.val = 16 * (t.val / 16) + 15 := by omega
  refine (congrFun (acc1_congr V c ht t.isLt (by have := t.isLt; omega)) (ix2 b r)).trans ?_
  exact acc1_row_last V c (t.val / 16) (by have := t.isLt; omega) _ b r

/-- An index of the output array is in the block of point `t` iff each coordinate is in the block's range. -/
theorem mem_blk1_2 (t : Fin cfg1.N) (i : S4x8192.Idx) :
    i ∈ ((cfg1.win 2).blk t).view.set ↔ ∀ a : Fin 2, win1_2.index t a * S4x1024.size a ≤ (i a).val ∧ (i a).val < win1_2.index t a * S4x1024.size a + S4x1024.size a := by
  show i ∈ ((View.whole main_v1).slice (win1_2.rect t)).set ↔ _
  rw [View.set_slice_whole, Rect.mem_set_unit]
  exact Iff.rfl

/-- Every index (b, n) of the output array is in the block the last point of grid row n / 1024 writes back. -/
theorem cover1_2 (i : S4x8192.Idx) :
    ∃ t : Fin cfg1.N, (cfg1.win 2).flush t = true ∧ i ∈ ((cfg1.win 2).blk t).view.set := by
  have hN : cfg1.N = 128 := N_1
  have hi0 : (i 0).val < 4 := (i 0).isLt
  have hi1 : (i 1).val < 8192 := (i 1).isLt
  refine ⟨⟨16 * ((i 1).val / 1024) + 15, by omega⟩, (flush1_2 _).mpr (by show (16 * ((i 1).val / 1024) + 15) % 16 = 15; omega), ?_⟩
  obtain ⟨e0, e1⟩ := idx1_2 ⟨16 * ((i 1).val / 1024) + 15, by omega⟩
  rw [mem_blk1_2]
  intro a
  match a with
  | ⟨0, _⟩ =>
    show win1_2.index _ (0 : Fin 2) * 4 ≤ (i 0).val ∧ (i 0).val < win1_2.index _ (0 : Fin 2) * 4 + 4
    rw [e0]; omega
  | ⟨1, _⟩ =>
    show win1_2.index _ (1 : Fin 2) * 1024 ≤ (i 1).val ∧ (i 1).val < win1_2.index _ (1 : Fin 2) * 1024 + 1024
    rw [e1]
    show (16 * ((i 1).val / 1024) + 15) / 16 * 1024 ≤ (i 1).val ∧ (i 1).val < (16 * ((i 1).val / 1024) + 15) / 16 * 1024 + 1024
    omega

/-- The output array after the second kernel's run is the nearest-neighbour array of the two clouds as the run finds
    them. -/
theorem arrAt1 (c : Dev nD) :
    (dat1 (F := Ideal) V c).arrAt 2 cfg1.N = Cert.Chamfer.nn (V c main_arg1) (V c main_arg0) :=
  (dat1 (F := Ideal) V c).arrAt_eq_of_cover 2 (Cert.Chamfer.nn (V c main_arg1) (V c main_arg0))
    (fun t hf => flushed1_eq V c t hf) cover1_2

end Value1

end Cert.KernelIdeal.Hand

end
-- ==== Proof.RefSide.lean ====
/-
  The reference's two nearest-neighbour arrays, read off its run.

  The reference forms the array of clamped squared distances
  `dis[b, n, m] = max (‖x0[b, n]‖² + ‖x1[b, m]‖² − 2·⟨x0[b, n], x1[b, m]⟩) 0` once and then takes its minimum twice,
  from the word of +∞: over `m` (the last axis), which gives for every point of `x0` the distance to the nearest
  point of `x1`, and over `n` (the middle axis), which gives for every point of `x1` the distance to the nearest
  point of `x0` because the clamped squared distance is symmetric in its two points.
-/
import proofs.«105942_j77094662964081_1_alg».proof.Proof.Gen.ReferenceIdeal.Run
import proofs.«105942_j77094662964081_1_alg».proof.Proof.Gen.ReferenceIdeal.Read
import proofs.«105942_j77094662964081_1_alg».proof.Proof.Spec
import Idealize.ShloMosaic.PureOps.Reduce
import Idealize.ShloMosaic.PureOps.Ideal.Laws
import Idealize.ShloMosaic.Lib.ValueIdx

noncomputable section

namespace Cert.Chamfer.Ref

open Idealize.ShloMosaic Idealize.ShloMosaic.ValueIdx
open Cert.ReferenceIdeal Cert.ReferenceIdeal.Gen Cert.ReferenceIdeal.Read
open scoped BigOperators

/-- The reference's sum of squares of the first cloud, at (batch, point), is the squared norm: the sum starts from
    the word of zero, which is 0. -/
theorem v2_ix2 (x0 : (⟨Cert.ReferenceIdeal.S4x8192x3, .f32⟩ : BufTy).Contents (Elt Ideal)) (b : Fin 4) (n : Fin 8192) :
    val_main_v2 (F := Ideal) x0 (ix2 b n) = sqn x0 b n := by
  refine (val_main_v2_apply x0 (ix2 b n)).trans ?_
  refine (congrArg (· + _) Ideal.ofBits_zero_f32).trans ?_
  refine (zero_add _).trans ?_
  refine Finset.sum_congr rfl fun k _ => ?_
  have e : idx_main_v2 (ix2 b n) k = ix3 b n k :=
    funext fun a => Fin.ext (by match a with | ⟨0, _⟩ => rfl | ⟨1, _⟩ => rfl | ⟨2, _⟩ => rfl)
  rw [e]
  rfl

/-- The same for the second cloud. -/
theorem v5_ix2 (x1 : (⟨Cert.ReferenceIdeal.S4x8192x3, .f32⟩ : BufTy).Contents (Elt Ideal)) (b : Fin 4) (m : Fin 8192) :
    val_main_v5 (F := Ideal) x1 (ix2 b m) = sqn x1 b m := by
  refine (val_main_v5_apply x1 (ix2 b m)).trans ?_
  refine (congrArg (· + _) Ideal.ofBits_zero_f32).trans ?_
  refine (zero_add _).trans ?_
  refine Finset.sum_congr rfl fun k _ => ?_
  have e : idx_main_v5 (ix2 b m) k = ix3 b m k :=
    funext fun a => Fin.ext (by match a with | ⟨0, _⟩ => rfl | ⟨1, _⟩ => rfl | ⟨2, _⟩ => rfl)
  rw [e]
  rfl

/-- The reference's contraction over the three coordinates, at (batch, n, m), is the inner product of point `n` of
    the first cloud with point `m` of the second. -/
theorem v0_ix3 (x0 x1 : (⟨Cert.ReferenceIdeal.S4x8192x3, .f32⟩ : BufTy).Contents (Elt Ideal)) (b : Fin 4) (n m : Fin 8192) :
    val_main_v0 (F := Ideal) x0 x1 (ix3 b n m) = dot x0 x1 b n m := by
  refine (val_main_v0_apply x0 x1 (ix3 b n m)).trans ?_
  refine Finset.sum_congr rfl fun k _ => ?_
  have el : lidx_main_v0 (ix3 b n m) k = ix3 b n k :=
    funext fun a => Fin.ext (by match a with | ⟨0, _⟩ => rfl | ⟨1, _⟩ => rfl | ⟨2, _⟩ => rfl)
  have er : ridx_main_v0 (ix3 b n m) k = ix3 b m k :=
    funext fun a => Fin.ext (by match a with | ⟨0, _⟩ => rfl | ⟨1, _⟩ => rfl | ⟨2, _⟩ => rfl)
  rw [el, er]

/-- The reference's distance array at (batch, n, m) is the clamped squared distance between point `n` of the first
    cloud and point `m` of the second: the two squared norms are broadcast along the other cloud's axis, the
    constants 2 and 0 to every position. -/
theorem v14_ix3 (x0 x1 : (⟨Cert.ReferenceIdeal.S4x8192x3, .f32⟩ : BufTy).Contents (Elt Ideal)) (b : Fin 4) (n m : Fin 8192) :
    val_main_v14 (F := Ideal) x0 x1 (ix3 b n m) = cdist x0 x1 b n m := by
  have e7 : idx_main_v3 (idx_main_v7 (ix3 b n m)) = ix2 b n :=
    funext fun a => Fin.ext (by match a with | ⟨0, _⟩ => rfl | ⟨1, _⟩ => rfl)
  have e8 : idx_main_v6 (idx_main_v8 (ix3 b n m)) = ix2 b m :=
    funext fun a => Fin.ext (by match a with | ⟨0, _⟩ => rfl | ⟨1, _⟩ => rfl)
  have h7 : val_main_v7 (F := Ideal) x0 (ix3 b n m) = sqn x0 b n := by
    rw [val_main_v7_apply, val_main_v3_apply, e7, v2_ix2]
  have h8 : val_main_v8 (F := Ideal) x1 (ix3 b n m) = sqn x1 b m := by
    rw [val_main_v8_apply, val_main_v6_apply, e8, v5_ix2]
  have h10 : val_main_v10 (F := Ideal) (ix3 b n m) = two := by
    rw [val_main_v10_apply]; rfl
  have h13 : val_main_v13 (F := Ideal) (ix3 b n m) = zero := by
    rw [val_main_v13_apply]; rfl
  rw [val_main_v14_apply, val_main_v12_apply, val_main_v9_apply, val_main_v11_apply, h7, h8, h10, h13, v0_ix3]
  rfl

/-- The minimum over the last axis: for every point of the first cloud, the distance to the nearest point of the
    second. -/
theorem ref_v15 (x0 x1 : (⟨Cert.ReferenceIdeal.S4x8192x3, .f32⟩ : BufTy).Contents (Elt Ideal)) :
    Cert.ReferenceIdeal.Read.val_main_v15 (F := Ideal) x0 x1 = Cert.Chamfer.nn x0 x1 := by
  funext j
  obtain ⟨b, n, rfl⟩ : ∃ (b : Fin 4) (n : Fin 8192), j = ix2 b n := ⟨j 0, j 1, eq_ix2 j⟩
  rw [nn_ix2]
  have h : S4x8192x8192.Reduces [2] S4x8192 := by decide
  unfold val_main_v15
  refine (Host.reduce_eq_fold_single (FloatOps.minimumf (F := Ideal) (φ := .f32)) (val_main_v14 (F := Ideal) x0 x1)
    (val_main_cst_3 (F := Ideal)) reducesTo_S4x8192x8192_S4x8192_d2 h h_S_ (ix2 b n)).trans ?_
  have ef : (val_main_v14 (F := Ideal) x0 x1 ∘ h.lift (ix2 b n)) = fun m : Fin 8192 => cdist x0 x1 b n m := by
    refine funext fun (m : Fin 8192) => ?_
    have el : h.lift (ix2 b n) m = ix3 b n m :=
      funext fun a => Fin.ext (by match a with | ⟨0, _⟩ => rfl | ⟨1, _⟩ => rfl | ⟨2, _⟩ => rfl)
    show val_main_v14 (F := Ideal) x0 x1 (h.lift (ix2 b n) m) = cdist x0 x1 b n m
    rw [el, v14_ix3]
  rw [ef]
  rfl

/-- The minimum over the middle axis: for every point of the second cloud, the distance to the nearest point of the
    first, by the symmetry of the clamped squared distance. -/
theorem ref_v16 (x0 x1 : (⟨Cert.ReferenceIdeal.S4x8192x3, .f32⟩ : BufTy).Contents (Elt Ideal)) :
    Cert.ReferenceIdeal.Read.val_main_v16 (F := Ideal) x0 x1 = Cert.Chamfer.nn x1 x0 := by
  funext j
  obtain ⟨b, m, rfl⟩ : ∃ (b : Fin 4) (m : Fin 8192), j = ix2 b m := ⟨j 0, j 1, eq_ix2 j⟩
  rw [nn_ix2]
  have h : S4x8192x8192.Reduces [1] S4x8192 := by decide
  unfold val_main_v16
  refine (Host.reduce_eq_fold_single (FloatOps.minimumf (F := Ideal) (φ := .f32)) (val_main_v14 (F := Ideal) x0 x1)
    (val_main_cst_4 (F := Ideal)) reducesTo_S4x8192x8192_S4x8192_d1 h h_S_ (ix2 b m)).trans ?_
  have ef : (val_main_v14 (F := Ideal) x0 x1 ∘ h.lift (ix2 b m)) = fun n : Fin 8192 => cdist x1 x0 b m n := by
    refine funext fun (n : Fin 8192) => ?_
    have el : h.lift (ix2 b m) n = ix3 b n m :=
      funext fun a => Fin.ext (by match a with | ⟨0, _⟩ => rfl | ⟨1, _⟩ => rfl | ⟨2, _⟩ => rfl)
    show val_main_v14 (F := Ideal) x0 x1 (h.lift (ix2 b m) n) = cdist x1 x0 b m n
    rw [el, v14_ix3, cdist_comm]
  rw [ef]
  rfl

end Cert.Chamfer.Ref

end
-- ==== Proof.Bridge.lean ====
/-
  The two idealized programs end with equal results.

  Both end with the same host tail — the mean over the points of each of two arrays, their sum, the mean over the
  batch — applied to two arrays over (batch, point).  For the kernel these are what its two regions leave: the distance
  from each point of the first cloud to its nearest point of the second, and from each point of the second cloud to its
  nearest point of the first.  For the reference they are the minima of one array of clamped squared distances along
  its last axis and along its middle axis; the second is the kernel's second array because the clamped squared distance
  is symmetric in its two points.  The arguments agree, so the two results are one term.
-/
import proofs.«105942_j77094662964081_1_alg».proof.Defs
import proofs.«105942_j77094662964081_1_alg».proof.Proof.KI.Run
import proofs.«105942_j77094662964081_1_alg».proof.Proof.KI.Value0
import proofs.«105942_j77094662964081_1_alg».proof.Proof.KI.Value1
import proofs.«105942_j77094662964081_1_alg».proof.Proof.RefSide
import proofs.«105942_j77094662964081_1_alg».proof.Proof.Gen.Pre_finite_inputs

set_option maxRecDepth 16384

noncomputable section

namespace Cert.Proof.Bridge

open Idealize.ShloMosaic Idealize.ShloMosaic.TcCoe Idealize.SL.Sem
open Cert.KernelIdeal Cert.KernelIdeal.Hand

/-- The reference's result stage is the shared host tail of its two nearest-neighbour stages. -/
theorem ref_tail (x0 x1 : (⟨Cert.ReferenceIdeal.S4x8192x3, .f32⟩ : BufTy).Contents (Elt Ideal)) :
    Cert.ReferenceIdeal.Read.val_main_v25 (F := Ideal) x0 x1
      = Cert.KernelIdeal.Hand.tail (F := Ideal) (Cert.ReferenceIdeal.Read.val_main_v15 (F := Ideal) x0 x1) (Cert.ReferenceIdeal.Read.val_main_v16 (F := Ideal) x0 x1) := rfl

variable (m : (ℓ : Loc nD τ sig) → Buf (Elt Ideal) ℓ) (ρ : Dev nD → PrngReg)

/-- The second region finds the first argument as launched: the first region only reads it. -/
theorem V2_main_arg0 (c : Dev nD) : V2 (F := Ideal) m ρ c main_arg0 = m ((c : Thread nD τ).loc main_arg0) :=
  (W2_arr m ρ c 0).trans (((dat0 (V1 m ρ) c).arrAt_in 0 rfl _).trans (A_eq0 (V1 m ρ) c 0))
/-- And the second. -/
theorem V2_main_arg1 (c : Dev nD) : V2 (F := Ideal) m ρ c main_arg1 = m ((c : Thread nD τ).loc main_arg1) :=
  (W2_arr m ρ c 1).trans (((dat0 (V1 m ρ) c).arrAt_in 1 rfl _).trans (A_eq0 (V1 m ρ) c 1))

/-- The kernel's result: the host tail of the two nearest-neighbour arrays of the launch contents. -/
theorem kernel_result (c : Dev nD) :
    tail (F := Ideal) ((dat0 (V1 m ρ) c).arrAt 2 cfg0.N) ((dat1 (V2 m ρ) c).arrAt 2 cfg1.N)
      = tail (F := Ideal) (Cert.Chamfer.nn (m ((c : Thread nD τ).loc main_arg0)) (m ((c : Thread nD τ).loc main_arg1)))
          (Cert.Chamfer.nn (m ((c : Thread nD τ).loc main_arg1)) (m ((c : Thread nD τ).loc main_arg0))) := by
  rw [arrAt0 (V1 m ρ) c, arrAt1 (V2 m ρ) c, V2_main_arg0 m ρ c, V2_main_arg1 m ρ c]

/-- From memories agreeing on the arguments both idealized programs run, end with equal results, and leave the
    arguments unchanged. -/
theorem algebraic : Cert.algebraic_KernelIdeal_ReferenceIdeal := by
  intro m ρ m' ρ' _ hagree
  refine ⟨fun c => tail (F := Ideal) (Cert.Chamfer.nn (m ((c : Thread nD τ).loc main_arg0)) (m ((c : Thread nD τ).loc main_arg1)))
      (Cert.Chamfer.nn (m ((c : Thread nD τ).loc main_arg1)) (m ((c : Thread nD τ).loc main_arg0))), ?_, ?_⟩
  · exact (θ_run Cert.KernelIdeal.defs _ _).mono (fun _ h c => ⟨(h c).1.trans (kernel_result m ρ c), (h c).2⟩)
      (run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, ref_tail, Cert.Chamfer.Ref.ref_v15, Cert.Chamfer.Ref.ref_v16,
      (hagree c).1, (hagree c).2]

end Cert.Proof.Bridge

end
-- ==== Proof.lean ====
/-
  The certificate's five claims.

  The kernel runs two pipeline regions (the same body on the two clouds in either order), each scanning for every
  source tile of 1024 points the sixteen target tiles of 512 points and carrying running minima of clamped squared
  distances in a scratch that it stores into the output block at every point; a short host tail then takes means.
  The frames of the word-level and of the idealized kernel are one proof, generic in the float instance; the
  reference's frame is its run with the result dropped; the idealization rewrote nothing; and over the extended reals
  the two idealized programs compute one term (Proof/Bridge.lean).
-/
import proofs.«105942_j77094662964081_1_alg».proof.Defs
import proofs.«105942_j77094662964081_1_alg».proof.Proof.Gen.Kernel
import proofs.«105942_j77094662964081_1_alg».proof.Proof.Gen.KernelIdeal
import proofs.«105942_j77094662964081_1_alg».proof.Proof.Gen.ReferenceIdeal
import proofs.«105942_j77094662964081_1_alg».proof.Proof.Gen.Pre_finite_inputs
import proofs.«105942_j77094662964081_1_alg».proof.Proof.K.Run
import proofs.«105942_j77094662964081_1_alg».proof.Proof.KI.Run
import proofs.«105942_j77094662964081_1_alg».proof.Proof.Bridge
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Bridge.algebraic⟩

end Cert.Proof

end
